-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S64x64 : Shape := ⟨2, ![64, 64]⟩
abbrev S64 : Shape := ⟨1, ![64]⟩
abbrev S2x1600000 : Shape := ⟨2, ![2, 1600000]⟩
abbrev S1600000 : Shape := ⟨1, ![1600000]⟩
abbrev S100000 : Shape := ⟨1, ![100000]⟩
abbrev S_ : Shape := ⟨0, ![]⟩
abbrev S1x1600000 : Shape := ⟨2, ![1, 1600000]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S1600000 : S_.BroadcastsInDim S1600000 (![] : Fin 0 → Fin S1600000.rank)
  reducesTo_S1600000_S_d0 : S1600000.ReducesTo [0] S_
  slices_S2x1600000_S1x1600000_0_0 : S2x1600000.Slices ![0, 0] S1x1600000
  shapeCasts_S1x1600000_S1600000 : S1x1600000.ShapeCasts S1600000

variable [Facts]

def fn_part2 {F : FTy → Type} [FloatOps F] (main_arg5 : IVec S1600000 32) (main_v34 : IVec S_ 1) : IVec S_ 1 :=
  let main_c_11 : IVec S_ 32 := constantI S_ 32 4294867296#32
  let main_v35 : IVec S1600000 32 := broadcastInDim S1600000 ![] bcast_S_S1600000 main_c_11
  let main_v36 : IVec S1600000 1 := cmpi .sge main_arg5 main_v35
  let main_c_12 : IVec S_ 32 := constantI S_ 32 100000#32
  let main_v37 : IVec S1600000 32 := broadcastInDim S1600000 ![] bcast_S_S1600000 main_c_12
  let main_v38 : IVec S1600000 1 := cmpi .slt main_arg5 main_v37
  let main_v39 : IVec S1600000 1 := andi main_v36 main_v38
  let main_c_13 : IVec S_ 1 := constantI S_ 1 1#1
  let main_v40 : IVec S_ 1 := (fun x v => Host.reduce IntOp.andi x v reducesTo_S1600000_S_d0 h_S_) main_v39 main_c_13
  let main_v41 : IVec S_ 1 := andi main_v34 main_v40
  main_v41

def fn_part1 {F : FTy → Type} [FloatOps F] (main_arg3 : IVec S2x1600000 32) (main_arg5 : IVec S1600000 32) (main_arg7 : FVec F S1600000 .f32) (main_v13 : IVec S_ 1) (main_v16 : IVec S1600000 1) : IVec S_ 1 :=
  let main_c_5 : IVec S_ 1 := constantI S_ 1 1#1
  let main_v17 : IVec S_ 1 := (fun x v => Host.reduce IntOp.andi x v reducesTo_S1600000_S_d0 h_S_) main_v16 main_c_5
  let main_v18 : IVec S_ 1 := andi main_v13 main_v17
  let main_v19 : FVec F S1600000 .f32 := Host.absf main_arg7
  let main_cst_6 : FVec F S_ .f32 := constant S_ .f32 0x7F800000#32
  let main_v20 : FVec F S1600000 .f32 := broadcastInDim S1600000 ![] bcast_S_S1600000 main_cst_6
  let main_v21 : IVec S1600000 1 := cmpf .olt main_v19 main_v20
  let main_c_7 : IVec S_ 1 := constantI S_ 1 1#1
  let main_v22 : IVec S_ 1 := (fun x v => Host.reduce IntOp.andi x v reducesTo_S1600000_S_d0 h_S_) main_v21 main_c_7
  let main_v23 : IVec S_ 1 := andi main_v18 main_v22
  let main_v24 : IVec S1x1600000 32 := (extractStridedSlice S1x1600000 ![0, 0] · slices_S2x1600000_S1x1600000_0_0) main_arg3
  let main_v25 : IVec S1600000 32 := shapeCast S1600000 main_v24 shapeCasts_S1x1600000_S1600000
  let main_c_8 : IVec S_ 32 := constantI S_ 32 4294867296#32
  let main_v26 : IVec S1600000 32 := broadcastInDim S1600000 ![] bcast_S_S1600000 main_c_8
  let main_v27 : IVec S1600000 1 := cmpi .sge main_v25 main_v26
  let main_v28 : IVec S1x1600000 32 := (extractStridedSlice S1x1600000 ![0, 0] · slices_S2x1600000_S1x1600000_0_0) main_arg3
  let main_v29 : IVec S1600000 32 := shapeCast S1600000 main_v28 shapeCasts_S1x1600000_S1600000
  let main_c_9 : IVec S_ 32 := constantI S_ 32 100000#32
  let main_v30 : IVec S1600000 32 := broadcastInDim S1600000 ![] bcast_S_S1600000 main_c_9
  let main_v31 : IVec S1600000 1 := cmpi .slt main_v29 main_v30
  let main_v32 : IVec S1600000 1 := andi main_v27 main_v31
  let main_c_10 : IVec S_ 1 := constantI S_ 1 1#1
  let main_v33 : IVec S_ 1 := (fun x v => Host.reduce IntOp.andi x v reducesTo_S1600000_S_d0 h_S_) main_v32 main_c_10
  let main_v34 : IVec S_ 1 := andi main_v23 main_v33
  fn_part2 (F := F) main_arg5 main_v34

def fn {F : FTy → Type} [FloatOps F] (main_arg0 : FVec F S100000x64 .f32) (main_arg1 : FVec F S64x64 .f32) (main_arg2 : FVec F S64 .f32) (main_arg3 : IVec S2x1600000 32) (main_arg4 : FVec F S1600000 .f32) (main_arg5 : IVec S1600000 32) (main_arg6 : IVec S1600000 32) (main_arg7 : FVec F S1600000 .f32) (main_arg8 : IVec S100000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S1600000 .f32 := Host.absf main_arg4
  let main_cst_4 : FVec F S_ .f32 := constant S_ .f32 0x7F800000#32
  let main_v15 : FVec F S1600000 .f32 := broadcastInDim S1600000 ![] bcast_S_S1600000 main_cst_4
  let main_v16 : IVec S1600000 1 := cmpf .olt main_v14 main_v15
  fn_part1 (F := F) main_arg3 main_arg5 main_arg7 main_v13 main_v16
-- ==== Kernel.lean ====
abbrev S100000x64 : Shape := ⟨2, ![100000, 64]⟩
abbrev S64x64 : Shape := ⟨2, ![64, 64]⟩
abbrev S64 : Shape := ⟨1, ![64]⟩
abbrev S2x1600000 : Shape := ⟨2, ![2, 1600000]⟩
abbrev S1600000 : Shape := ⟨1, ![1600000]⟩
abbrev S100000 : Shape := ⟨1, ![100000]⟩
abbrev S1x1600000 : Shape := ⟨2, ![1, 1600000]⟩
abbrev S20000x64 : Shape := ⟨2, ![20000, 64]⟩
abbrev S_ : Shape := ⟨0, ![]⟩
abbrev S1600000x1 : Shape := ⟨2, ![1600000, 1]⟩
abbrev S1 : Shape := ⟨1, ![1]⟩
abbrev S1x1 : Shape := ⟨2, ![1, 1]⟩
abbrev S1600000x64 : Shape := ⟨2, ![1600000, 64]⟩
abbrev S1x64 : Shape := ⟨2, ![1, 64]⟩
abbrev S400000x64 : Shape := ⟨2, ![400000, 64]⟩
abbrev S100000x1 : Shape := ⟨2, ![100000, 1]⟩

abbrev nBuf : Space → Nat
  | .hbm => 86
  | .vmem => 5
  | .smem => 0
  | _ => 0

abbrev bufTy : (tb : Table) → Fin (tcTables nBuf tb) → BufTy
  | .hbm, ⟨0, _⟩ => ⟨S100000x64, .f32⟩
  | .hbm, ⟨1, _⟩ => ⟨S64x64, .f32⟩
  | .hbm, ⟨2, _⟩ => ⟨S64, .f32⟩
  | .hbm, ⟨3, _⟩ => ⟨S2x1600000, .i32⟩
  | .hbm, ⟨4, _⟩ => ⟨S1600000, .f32⟩
  | .hbm, ⟨5, _⟩ => ⟨S1600000, .i32⟩
  | .hbm, ⟨6, _⟩ => ⟨S1600000, .i32⟩
  | .hbm, ⟨7, _⟩ => ⟨S1600000, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S100000x64, .f32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1, .i32⟩
  | .hbm, ⟨23, _⟩ => ⟨S_, .i32⟩
  | .hbm, ⟨24, _⟩ => ⟨S1600000x1, .i32⟩
  | .hbm, ⟨25, _⟩ => ⟨S1600000x1, .i1⟩
  | .hbm, ⟨26, _⟩ => ⟨S1x1, .i32⟩
  | .hbm, ⟨27, _⟩ => ⟨S1600000x1, .i32⟩
  | .hbm, ⟨28, _⟩ => ⟨S1600000x1, .i1⟩
  | .hbm, ⟨29, _⟩ => ⟨S1600000x1, .i1⟩
  | .hbm, ⟨30, _⟩ => ⟨S_, .i1⟩
  | .hbm, ⟨31, _⟩ => ⟨S1600000, .i1⟩
  | .hbm, ⟨32, _⟩ => ⟨S1600000x64, .f32⟩
  | .hbm, ⟨33, _⟩ => ⟨S1600000x64, .i1⟩
  | .hbm, ⟨34, _⟩ => ⟨S_, .f32⟩
  | .hbm, ⟨35, _⟩ => ⟨S1600000x64, .f32⟩
  | .hbm, ⟨36, _⟩ => ⟨S1600000x64, .f32⟩
  | .hbm, ⟨37, _⟩ => ⟨S1600000x1, .f32⟩
  | .hbm, ⟨38, _⟩ => ⟨S1600000x64, .f32⟩
  | .hbm, ⟨39, _⟩ => ⟨S1600000x64, .f32⟩
  | .hbm, ⟨40, _⟩ => ⟨S_, .f32⟩
  | .hbm, ⟨41, _⟩ => ⟨S100000x64, .f32⟩
  | .hbm, ⟨42, _⟩ => ⟨S1600000x1, .i32⟩
  | .hbm, ⟨43, _⟩ => ⟨S100000x64, .f32⟩
  | .hbm, ⟨44, _⟩ => ⟨S1x64, .f32⟩
  | .hbm, ⟨45, _⟩ => ⟨S100000x64, .f32⟩
  | .hbm, ⟨46, _⟩ => ⟨S100000x64, .f32⟩
  | .hbm, ⟨47, _⟩ => ⟨S_, .i32⟩
  | .hbm, ⟨48, _⟩ => ⟨S1600000, .i32⟩
  | .hbm, ⟨49, _⟩ => ⟨S1600000, .i1⟩
  | .hbm, ⟨50, _⟩ => ⟨S_, .i32⟩
  | .hbm, ⟨51, _⟩ => ⟨S1600000, .i32⟩
  | .hbm, ⟨52, _⟩ => ⟨S1600000, .i32⟩
  | .hbm, ⟨53, _⟩ => ⟨S1600000, .i32⟩
  | .hbm, ⟨54, _⟩ => ⟨S1600000x1, .i32⟩
  | .hbm, ⟨55, _⟩ => ⟨S1, .i32⟩
  | .hbm, ⟨56, _⟩ => ⟨S_, .i32⟩
  | .hbm, ⟨57, _⟩ => ⟨S1600000x1, .i32⟩
  | .hbm, ⟨58, _⟩ => ⟨S1600000x1, .i1⟩
  | .hbm, ⟨59, _⟩ => ⟨S1x1, .i32⟩
  | .hbm, ⟨60, _⟩ => ⟨S1600000x1, .i32⟩
  | .hbm, ⟨61, _⟩ => ⟨S1600000x1, .i1⟩
  | .hbm, ⟨62, _⟩ => ⟨S1600000x1, .i1⟩
  | .hbm, ⟨63, _⟩ => ⟨S_, .i1⟩
  | .hbm, ⟨64, _⟩ => ⟨S1600000, .i1⟩
  | .hbm, ⟨65, _⟩ => ⟨S1600000x64, .f32⟩
  | .hbm, ⟨66, _⟩ => ⟨S1600000x64, .i1⟩
  | .hbm, ⟨67, _⟩ => ⟨S_, .f32⟩
  | .hbm, ⟨68, _⟩ => ⟨S1600000x64, .f32⟩
  | .hbm, ⟨69, _⟩ => ⟨S1600000x64, .f32⟩
  | .hbm, ⟨70, _⟩ => ⟨S1600000x1, .f32⟩
  | .hbm, ⟨71, _⟩ => ⟨S1600000x64, .f32⟩
  | .hbm, ⟨72, _⟩ => ⟨S1600000x64, .f32⟩
  | .hbm, ⟨73, _⟩ => ⟨S_, .f32⟩
  | .hbm, ⟨74, _⟩ => ⟨S400000x64, .f32⟩
  | .hbm, ⟨75, _⟩ => ⟨S1600000x1, .i32⟩
  | .hbm, ⟨76, _⟩ => ⟨S400000x64, .f32⟩
  | .hbm, ⟨77, _⟩ => ⟨S_, .i32⟩
  | .hbm, ⟨78, _⟩ => ⟨S100000, .i32⟩
  | .hbm, ⟨79, _⟩ => ⟨S100000, .i1⟩
  | .hbm, ⟨80, _⟩ => ⟨S_, .i32⟩
  | .hbm, ⟨81, _⟩ => ⟨S100000, .i32⟩
  | .hbm, ⟨82, _⟩ => ⟨S100000, .i32⟩
  | .hbm, ⟨83, _⟩ => ⟨S100000, .i32⟩
  | .hbm, ⟨84, _⟩ => ⟨S100000x1, .i32⟩
  | .hbm, ⟨85, _⟩ => ⟨S400000x64, .f32⟩
  | .local _ .vmem, ⟨0, _⟩ => ⟨S20000x64, .f32⟩
  | .local _ .vmem, ⟨1, _⟩ => ⟨S20000x64, .f32⟩
  | .local _ .vmem, ⟨2, _⟩ => ⟨S64x64, .f32⟩
  | .local _ .vmem, ⟨3, _⟩ => ⟨S20000x64, .f32⟩
  | .local _ .vmem, ⟨4, _⟩ => ⟨S20000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_call0_c : Ref sig .tc := ⟨.hbm, 14, rfl⟩
abbrev main_call0_v0 : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_c_1 : Ref sig .tc := ⟨.hbm, 22, rfl⟩
abbrev main_call0_c_2 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_3 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_call0_cst : Ref sig .tc := ⟨.hbm, 34, rfl⟩
abbrev main_call0_v15 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_cst : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_call1_c : Ref sig .tc := ⟨.hbm, 47, rfl⟩
abbrev main_call1_v0 : Ref sig .tc := ⟨.hbm, 48, rfl⟩
abbrev main_call1_v1 : Ref sig .tc := ⟨.hbm, 49, rfl⟩
abbrev main_call1_c_0 : Ref sig .tc := ⟨.hbm, 50, rfl⟩
abbrev main_call1_v2 : Ref sig .tc := ⟨.hbm, 51, rfl⟩
abbrev main_call1_v3 : Ref sig .tc := ⟨.hbm, 52, rfl⟩
abbrev main_call1_v4 : Ref sig .tc := ⟨.hbm, 53, rfl⟩
abbrev main_call1_v5 : Ref sig .tc := ⟨.hbm, 54, rfl⟩
abbrev main_call1_c_1 : Ref sig .tc := ⟨.hbm, 55, rfl⟩
abbrev main_call1_c_2 : Ref sig .tc := ⟨.hbm, 56, rfl⟩
abbrev main_call1_v6 : Ref sig .tc := ⟨.hbm, 57, rfl⟩
abbrev main_call1_v7 : Ref sig .tc := ⟨.hbm, 58, rfl⟩
abbrev main_call1_v8 : Ref sig .tc := ⟨.hbm, 59, rfl⟩
abbrev main_call1_v9 : Ref sig .tc := ⟨.hbm, 60, rfl⟩
abbrev main_call1_v10 : Ref sig .tc := ⟨.hbm, 61, rfl⟩
abbrev main_call1_v11 : Ref sig .tc := ⟨.hbm, 62, rfl⟩
abbrev main_call1_c_3 : Ref sig .tc := ⟨.hbm, 63, rfl⟩
abbrev main_call1_v12 : Ref sig .tc := ⟨.hbm, 64, rfl⟩
abbrev main_call1_v13 : Ref sig .tc := ⟨.hbm, 65, rfl⟩
abbrev main_call1_v14 : Ref sig .tc := ⟨.hbm, 66, rfl⟩
abbrev main_call1_cst : Ref sig .tc := ⟨.hbm, 67, rfl⟩
abbrev main_call1_v15 : Ref sig .tc := ⟨.hbm, 68, rfl⟩
abbrev main_v15 : Ref sig .tc := ⟨.hbm, 69, rfl⟩
abbrev main_v16 : Ref sig .tc := ⟨.hbm, 70, rfl⟩
abbrev main_v17 : Ref sig .tc := ⟨.hbm, 71, rfl⟩
abbrev main_v18 : Ref sig .tc := ⟨.hbm, 72, rfl⟩
abbrev main_cst_0 : Ref sig .tc := ⟨.hbm, 73, rfl⟩
abbrev main_v19 : Ref sig .tc := ⟨.hbm, 74, rfl⟩
abbrev main_v20 : Ref sig .tc := ⟨.hbm, 75, rfl⟩
abbrev main_v21 : Ref sig .tc := ⟨.hbm, 76, rfl⟩
abbrev main_c : Ref sig .tc := ⟨.hbm, 77, rfl⟩
abbrev main_v22 : Ref sig .tc := ⟨.hbm, 78, rfl⟩
abbrev main_v23 : Ref sig .tc := ⟨.hbm, 79, rfl⟩
abbrev main_c_1 : Ref sig .tc := ⟨.hbm, 80, rfl⟩
abbrev main_v24 : Ref sig .tc := ⟨.hbm, 81, rfl⟩
abbrev main_v25 : Ref sig .tc := ⟨.hbm, 82, rfl⟩
abbrev main_v26 : Ref sig .tc := ⟨.hbm, 83, rfl⟩
abbrev main_v27 : Ref sig .tc := ⟨.hbm, 84, rfl⟩
abbrev main_v28 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S20000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S20000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  inb_S20000x64_S20000x64_0_0 : ∀ a, (![0, 0] : Fin 2 → Nat) a + S20000x64.size a ≤ S20000x64.size a
  h_S20000x64 : 0 < S20000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x64_0 : S1600000.BroadcastsInDim S1600000x64 (![0] : Fin 1 → Fin S1600000x64.rank)
  bcast_S_S1600000x64 : S_.BroadcastsInDim S1600000x64 (![] : Fin 0 → Fin S1600000x64.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S400000x64 : S_.BroadcastsInDim S400000x64 (![] : Fin 0 → Fin S400000x64.rank)
  bcast_S_S100000 : S_.BroadcastsInDim S100000 (![] : Fin 0 → Fin S100000.rank)
  bcast_S100000_S100000x1_0 : S100000.BroadcastsInDim S100000x1 (![0] : Fin 1 → Fin S100000x1.rank)
  dot_S20000x64_S64x64_S20000x64_1_0_0_1_n_n_wf : DotDims.WF S20000x64 S64x64 S20000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S400000x64_S1600000x1_S1600000x64_1_0_0_1_wf : ScatterDims.WF S400000x64 S1600000x1 S1600000x64 [1] [0] [0] 1
  scatter_S400000x64_S100000x1_S100000x64_1_0_0_1_wf : ScatterDims.WF S400000x64 S100000x1 S100000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S20000x64.size a ≤ S100000x64.size a
  hwx0_0 : ∀ i : grid0.Coords, EltTy.bits .f32 = 32 ∨ (Rect.block (s := S100000x64) S20000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S20000x64.size a ≤ S100000x64.size a
  hwx0_2 : ∀ i : grid0.Coords, EltTy.bits .f32 = 32 ∨ (Rect.block (s := S100000x64) S20000x64.size (cc0_transform_2 i) (hinb0_2 i)).WholeWords (EltTy.packing .f32)

variable [Facts₀]

def dot_S20000x64_S64x64_S20000x64_1_0_0_1_n_n : DotDims S20000x64 S64x64 S20000x64 where
  lhsContracting := [1]
  rhsContracting := [0]
  lhsNonContracting := [0]
  rhsNonContracting := [1]
  lhsBatch := []
  rhsBatch := []
  wf := dot_S20000x64_S64x64_S20000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S400000x64_S1600000x1_S1600000x64_1_0_0_1 : ScatterDims S400000x64 S1600000x1 S1600000x64 where
  updateWindowDims := [1]
  insertedWindowDims := [0]
  scatterDimsToOperandDims := [0]
  indexVectorDim := 1
  wf := scatter_S400000x64_S1600000x1_S1600000x64_1_0_0_1_wf
def scatter_S400000x64_S100000x1_S100000x64_1_0_0_1 : ScatterDims S400000x64 S100000x1 S100000x64 where
  updateWindowDims := [1]
  insertedWindowDims := [0]
  scatterDimsToOperandDims := [0]
  indexVectorDim := 1
  wf := scatter_S400000x64_S100000x1_S100000x64_1_0_0_1_wf

abbrev win0_0 : Pipeline.Window sig grid0 :=
  Pipeline.Window.ofSpec (Memref.whole main_arg0) S20000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S20000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S100000x64 : Shape := ⟨2, ![100000, 64]⟩
abbrev S64x64 : Shape := ⟨2, ![64, 64]⟩
abbrev S64 : Shape := ⟨1, ![64]⟩
abbrev S2x1600000 : Shape := ⟨2, ![2, 1600000]⟩
abbrev S1600000 : Shape := ⟨1, ![1600000]⟩
abbrev S100000 : Shape := ⟨1, ![100000]⟩
abbrev S1x1600000 : Shape := ⟨2, ![1, 1600000]⟩
abbrev S1600000x1 : Shape := ⟨2, ![1600000, 1]⟩
abbrev S_ : Shape := ⟨0, ![]⟩
abbrev S1600000x64 : Shape := ⟨2, ![1600000, 64]⟩
abbrev S1x64 : Shape := ⟨2, ![1, 64]⟩
abbrev S400000x64 : Shape := ⟨2, ![400000, 64]⟩
abbrev S100000x1 : Shape := ⟨2, ![100000, 1]⟩

abbrev nBuf : Space → Nat
  | .hbm => 58
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S64x64, .f32⟩
  | .hbm, ⟨2, _⟩ => ⟨S64, .f32⟩
  | .hbm, ⟨3, _⟩ => ⟨S2x1600000, .i32⟩
  | .hbm, ⟨4, _⟩ => ⟨S1600000, .f32⟩
  | .hbm, ⟨5, _⟩ => ⟨S1600000, .i32⟩
  | .hbm, ⟨6, _⟩ => ⟨S1600000, .i32⟩
  | .hbm, ⟨7, _⟩ => ⟨S1600000, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S1600000x1, .f32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x64, .f32⟩
  | .hbm, ⟨23, _⟩ => ⟨S1600000x64, .f32⟩
  | .hbm, ⟨24, _⟩ => ⟨S1600000x64, .f32⟩
  | .hbm, ⟨25, _⟩ => ⟨S_, .f32⟩
  | .hbm, ⟨26, _⟩ => ⟨S100000x64, .f32⟩
  | .hbm, ⟨27, _⟩ => ⟨S1600000x1, .i32⟩
  | .hbm, ⟨28, _⟩ => ⟨S100000x64, .f32⟩
  | .hbm, ⟨29, _⟩ => ⟨S100000x64, .f32⟩
  | .hbm, ⟨30, _⟩ => ⟨S1x64, .f32⟩
  | .hbm, ⟨31, _⟩ => ⟨S100000x64, .f32⟩
  | .hbm, ⟨32, _⟩ => ⟨S100000x64, .f32⟩
  | .hbm, ⟨33, _⟩ => ⟨S1600000x1, .f32⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1600000x64, .f32⟩
  | .hbm, ⟨43, _⟩ => ⟨S1600000x64, .f32⟩
  | .hbm, ⟨44, _⟩ => ⟨S1600000x64, .f32⟩
  | .hbm, ⟨45, _⟩ => ⟨S_, .f32⟩
  | .hbm, ⟨46, _⟩ => ⟨S400000x64, .f32⟩
  | .hbm, ⟨47, _⟩ => ⟨S1600000x1, .i32⟩
  | .hbm, ⟨48, _⟩ => ⟨S400000x64, .f32⟩
  | .hbm, ⟨49, _⟩ => ⟨S_, .i32⟩
  | .hbm, ⟨50, _⟩ => ⟨S100000, .i32⟩
  | .hbm, ⟨51, _⟩ => ⟨S100000, .i1⟩
  | .hbm, ⟨52, _⟩ => ⟨S_, .i32⟩
  | .hbm, ⟨53, _⟩ => ⟨S100000, .i32⟩
  | .hbm, ⟨54, _⟩ => ⟨S100000, .i32⟩
  | .hbm, ⟨55, _⟩ => ⟨S100000, .i32⟩
  | .hbm, ⟨56, _⟩ => ⟨S100000x1, .i32⟩
  | .hbm, ⟨57, _⟩ => ⟨S400000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_v5 : Ref sig .tc := ⟨.hbm, 15, rfl⟩
abbrev main_v6 : Ref sig .tc := ⟨.hbm, 16, rfl⟩
abbrev main_c_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_1 : Ref sig .tc := ⟨.hbm, 34, rfl⟩
abbrev main_v22 : Ref sig .tc := ⟨.hbm, 35, rfl⟩
abbrev main_v23 : Ref sig .tc := ⟨.hbm, 36, rfl⟩
abbrev main_c_2 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_3 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_c_4 : Ref sig .tc := ⟨.hbm, 49, rfl⟩
abbrev main_v34 : Ref sig .tc := ⟨.hbm, 50, rfl⟩
abbrev main_v35 : Ref sig .tc := ⟨.hbm, 51, rfl⟩
abbrev main_c_5 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S400000x64 : S_.BroadcastsInDim S400000x64 (![] : Fin 0 → Fin S400000x64.rank)
  bcast_S_S100000 : S_.BroadcastsInDim S100000 (![] : Fin 0 → Fin S100000.rank)
  bcast_S100000_S100000x1_0 : S100000.BroadcastsInDim S100000x1 (![0] : Fin 1 → Fin S100000x1.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  scatter_S400000x64_S1600000x1_S1600000x64_1_0_0_1_wf : ScatterDims.WF S400000x64 S1600000x1 S1600000x64 [1] [0] [0] 1
  scatter_S400000x64_S100000x1_S100000x64_1_0_0_1_wf : ScatterDims.WF S400000x64 S100000x1 S100000x64 [1] [0] [0] 1

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S400000x64_S1600000x1_S1600000x64_1_0_0_1 : ScatterDims S400000x64 S1600000x1 S1600000x64 where
  updateWindowDims := [1]
  insertedWindowDims := [0]
  scatterDimsToOperandDims := [0]
  indexVectorDim := 1
  wf := scatter_S400000x64_S1600000x1_S1600000x64_1_0_0_1_wf
def scatter_S400000x64_S100000x1_S100000x64_1_0_0_1 : ScatterDims S400000x64 S100000x1 S100000x64 where
  updateWindowDims := [1]
  insertedWindowDims := [0]
  scatterDimsToOperandDims := [0]
  indexVectorDim := 1
  wf := scatter_S400000x64_S100000x1_S100000x64_1_0_0_1_wf

class Facts : Prop extends Facts₀ where

variable [Facts]
-- ==== Proof.LinFrame.lean ====
/-
  The frame of the program: @main is four index-preparing host operations, ONE pallas region (a
  row-tiled matrix product, five row blocks of 20000 rows, the 64 x 64 factor resident), and four
  stretches of host operations after it (two row gathers with their range masks, two row
  scatter-adds, the bias, the final row scatter).

  The region's body loads its row block and the factor whole, and stores their product over the whole
  output block: after the body the output's staging buffer holds that one payload of the two input
  blocks. With this as the pipeline's proof data, every weakly fair execution of @main terminates
  without a fault; the region's output array ends at what the write-backs assemble, every other
  unscoped buffer at what the later host operations compute from it, and no host operation writes an
  argument of @main, so the nine arguments end as they were launched.
-/
import proofs.«429869_j43018392436869_2_alg».proof.Proof.Gen.KernelIdeal.Launch
import proofs.«429869_j43018392436869_2_alg».proof.Proof.Gen.KernelIdeal.Skeleton
import proofs.«429869_j43018392436869_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Lin

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The TensorCore buffers of core `c` when the region is entered: the launch contents after the four
    operations that cut the edge list into its source and destination rows. -/
abbrev entry (c : Dev nD) : Valuation τ sig (Elt F) := StableHlo.after (List.flatten [hostOps0]) (fun b => m (c, b))
/-- The same, read at one buffer. -/
abbrev entryAt (c : Dev nD) (b : Ref sig .tc) : Buf (Elt F) ((c : Thread nD τ).loc b) := entry m c (Proc.devRef .tc b)

/-- The host operations after the region, stretch by stretch: the first gather with its mask, the first
    scatter-add and the bias, the second gather with its mask, the second scatter-add and the final scatter. -/
abbrev tailOps : List (List (HloOp τ sig (Elt F))) := [hostOps1, hostOps1_1, hostOps1_2, hostOps1_3]

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor

set_option maxHeartbeats 4000000 in
/-- @main is the four leading operations, the region, and then the later stretches in order. -/
theorem main_around (𝒱₀ : Variants) : Pipeline.HMainK (Ix := Unit) (Name := ℕ) (U := UR sig nD τ) (Lvl := ℕ) cfgs 0 defs₀ 𝒱₀ m (main (F := F)) (entryAt m)
      (fun _ => Pipeline.chain [StableHlo.seq hostOps1, StableHlo.seq hostOps1_1, StableHlo.seq hostOps1_2, StableHlo.seq hostOps1_3]) :=
  Pipeline.hmain_around cfgs 0 defs₀ 𝒱₀ m main [hostOps0] tailOps (by simp only [List.Forall]; exact hostOps0_sub)
    (by simp only [List.Forall]; exact hostOps0_fresh) main_chain

/-- A later operation touches only the region's three arrays and the buffers that bypass the region. -/
theorem tail_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)

/-- None allocates. -/
theorem tail_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop

/-- Each writes its own result buffer, which is none of the region's three arrays (the rows, the factor,
    the product). -/
theorem keeps1 : (hostOps1 : List (HloOp τ sig (Elt F))).Forall fun op =>
    ∀ w, Proc.devRef .tc (Pipeline.arrRef spec0 w) ∉ op.writes := by
  simp only [hostOps1, List.Forall, StableHlo.nullary_writes, StableHlo.unary_writes, StableHlo.binary_writes,
    StableHlo.ternary_writes, StableHlo.reshape_writes, Finset.mem_singleton]
  repeat' apply And.intro
  all_goals intro w; fin_cases w <;> exact StableHlo.devRef_ne_of_ne (by decide)
theorem keeps1_1 : (hostOps1_1 : List (HloOp τ sig (Elt F))).Forall fun op =>
    ∀ w, Proc.devRef .tc (Pipeline.arrRef spec0 w) ∉ op.writes := by
  simp only [hostOps1_1, List.Forall, StableHlo.nullary_writes, StableHlo.unary_writes, StableHlo.binary_writes,
    StableHlo.ternary_writes, StableHlo.reshape_writes, Finset.mem_singleton]
  repeat' apply And.intro
  all_goals intro w; fin_cases w <;> exact StableHlo.devRef_ne_of_ne (by decide)
theorem keeps1_2 : (hostOps1_2 : List (HloOp τ sig (Elt F))).Forall fun op =>
    ∀ w, Proc.devRef .tc (Pipeline.arrRef spec0 w) ∉ op.writes := by
  simp only [hostOps1_2, List.Forall, StableHlo.nullary_writes, StableHlo.unary_writes, StableHlo.binary_writes,
    StableHlo.ternary_writes, StableHlo.reshape_writes, Finset.mem_singleton]
  repeat' apply And.intro
  all_goals intro w; fin_cases w <;> exact StableHlo.devRef_ne_of_ne (by decide)
theorem keeps1_3 : (hostOps1_3 : List (HloOp τ sig (Elt F))).Forall fun op =>
    ∀ w, Proc.devRef .tc (Pipeline.arrRef spec0 w) ∉ op.writes := by
  simp only [hostOps1_3, List.Forall, StableHlo.nullary_writes, StableHlo.unary_writes, StableHlo.binary_writes,
    StableHlo.ternary_writes, StableHlo.reshape_writes, Finset.mem_singleton]
  repeat' apply And.intro
  all_goals intro w; fin_cases w <;> exact StableHlo.devRef_ne_of_ne (by decide)

theorem tail_keeps : ∀ ops ∈ (tailOps : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl | rfl
  · exact (List.forall_iff_forall_mem.mp keeps1) op hop
  · exact (List.forall_iff_forall_mem.mp keeps1_1) op hop
  · exact (List.forall_iff_forall_mem.mp keeps1_2) op hop
  · exact (List.forall_iff_forall_mem.mp keeps1_3) op hop

/-! ## No host operation writes an argument -/

/-- An argument `a` of @main is not the result buffer of any of the four leading operations: the region
    finds it as launched. -/
theorem entry_arg (a : Ref sig .tc)
    (ha : a = main_arg0 ∨ a = main_arg1 ∨ a = main_arg2 ∨ a = main_arg3 ∨ a = main_arg4 ∨ a = main_arg5 ∨ a = main_arg6 ∨ a = main_arg7 ∨ a = main_arg8)
    (c : Dev nD) : entryAt m c a = m ((c : Thread nD τ).loc a) :=
  StableHlo.after_of_forall_not_mem (b := Proc.devRef .tc a) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.reshape_writes, Finset.mem_singleton]
    rcases ha with rfl | rfl | rfl | rfl | rfl | rfl | rfl | rfl | rfl <;>
    · repeat' apply And.intro
      all_goals exact StableHlo.devRef_ne_of_ne (by decide)))

end Cert.KernelIdeal.Lin

end
-- ==== Proof.LinRun.lean ====
/-
  The region of the program and the run of @main around it.

  At grid point `t` the body is handed row block `t` of the row array (20000 rows), the whole 64 x 64
  factor, and the output's staging buffer; it loads the two inputs whole and stores ONE payload, their
  matrix product, over the whole output block. So the proof data says: after the body each input's buffer
  still holds its block, and the output's buffer holds that payload of the two blocks. The factor is
  fetched at the first point only and keeps its place afterwards, because its block index never moves.

  With this, every weakly fair execution of @main terminates without a fault; and since no host operation,
  before or after the region, writes an argument of @main, and the region writes back only the product
  array, all nine arguments end as they were launched.
-/
import proofs.«429869_j43018392436869_2_alg».proof.Proof.LinFrame

set_option maxRecDepth 16384

noncomputable section

namespace Cert.KernelIdeal.Lin

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at grid point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (entryAt m c (Pipeline.arrRef spec0 w))

/-- The row window's staging buffer holds row block `t` when the body starts at `t`, for any proof data over the
    region-entry arrays whose body leaves that block in place. -/
theorem rows_staged {c : Dev nD} (dat : Dat τ (Elt F) Unit ℕ (UR sig nD τ) ℕ cfg0 c) (hA : dat.A 0 = entryAt m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- The factor's staging buffer holds the factor at every point, though it is fetched only at the first: its
    block index does not move. -/
theorem factor_staged {c : Dev nD} (dat : Dat τ (Elt F) Unit ℕ (UR sig nD τ) ℕ cfg0 c) (hA : dat.A 1 = entryAt m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-! ## What the body leaves in the output's buffer -/

/-- The whole output block, as the one rectangle the body stores through. -/
abbrev wholeBlock : Rect S20000x64 := Rect.unit (s := S20000x64) ![0, 0] S20000x64.size inb_S20000x64_S20000x64_0_0
/-- The whole factor, as the rectangle the body loads it through. -/
abbrev wholeFactor : Rect S64x64 := Rect.unit (s := S64x64) ![0, 0] S64x64.size inb_S64x64_S64x64_0_0

/-- The output's staging buffer after the body: the one stored piece, the product payload of the loaded row
    block and factor. -/
def productBlock (x0 : Vec F S20000x64 .f32) (x1 : Vec F S64x64 .f32) : Vec F S20000x64 .f32 :=
  View.canon [⟨wholeBlock, k0_pay1 (View.ld x0 wholeBlock) (View.ld x1 wholeFactor)⟩]

/-- That one store covers the buffer. -/
theorem store_covers (p0 : Vec F S20000x64 .f32) (y : S20000x64.Idx) :
    ∃ pc ∈ ([⟨wholeBlock, p0⟩] : List (View.Piece (Elt F) S20000x64 .f32)), y ∈ pc.1.set :=
  View.cover_of_tiled [⟨wholeBlock, p0⟩] S20000x64.size (by rfl) y

/-! ## The body's triple -/

set_option maxHeartbeats 1000000 in
/-- On whole staging memrefs — the inputs' at contents `x0`, `x1`, the output's at anything — the body runs to its
    continuation with the inputs' as they were and the output's at `productBlock x0 x1`. -/
theorem body_sound (c : Dev nD) (E : Set ℕ) (i : grid0.Coords)
    (arg1 : Memref sig .tc .vmem S20000x64 .f32) (harg1 : arg1.IsWhole) (arg2 : Memref sig .tc .vmem S64x64 .f32) (harg2 : arg2.IsWhole)
    (arg3 : Memref sig .tc .vmem S20000x64 .f32) (harg3 : arg3.IsWhole)
    (x0 : Vec F S20000x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (productBlock x0 x1)) -∗ K ⟨⟩))
      ⊢ wp frame (wpE (defs₀ (F := F)) Variants.none c none) E (cc0__linear_kernel i arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (store_covers _)

/-! ## The pipeline's proof data -/

/-- On core `c`: the arrays as the region finds them; after the body at point `t` the row window's buffer at row
    block `t`, the factor's at the factor, the output's at their product payload; the invariant the scoped rest
    and the generator register, untouched; nothing owed; full shares. -/
def dats (_ : Fin 1) (c : Dev nD) : Dat τ (Elt F) Unit ℕ (UR sig nD τ) ℕ cfg0 c where
  A w := entryAt m c (Pipeline.arrRef spec0 w)
  after w t := match w with
    | ⟨0, _⟩ => blockAt m c 0 t
    | ⟨1, _⟩ => blockAt m c 1 t
    | ⟨2, _⟩ => productBlock (blockAt m c 0 t) (blockAt m c 1 t)
  Φ _ := Pipeline.ΦA spec0 c
  q _ := fullShare
  owed _ := 0

theorem dats_A (c : Dev nD) (w : Fin cfg0.W) : (dats m 0 c).A w = entryAt m c (Pipeline.arrRef spec0 w) := by
  dsimp only [dats]

theorem after_rows (c : Dev nD) (t : Fin cfg0.N) : (dats m 0 c).after 0 t = blockAt m c 0 t := by dsimp only [dats]
theorem after_factor (c : Dev nD) (t : Fin cfg0.N) : (dats m 0 c).after 1 t = blockAt m c 1 t := by dsimp only [dats]
theorem after_product (c : Dev nD) (t : Fin cfg0.N) :
    (dats m 0 c).after 2 t = productBlock (blockAt m c 0 t) (blockAt m c 1 t) := by dsimp only [dats]

theorem before_rows (c : Dev nD) (t : Fin cfg0.N) (d) : (dats m 0 c).before 0 t d = blockAt m c 0 t :=
  rows_staged m (dats m 0 c) (dats_A m c 0) (after_rows m c) t d
theorem before_factor (c : Dev nD) (t : Fin cfg0.N) (d) : (dats m 0 c).before 1 t d = blockAt m c 1 t :=
  factor_staged m (dats m 0 c) (dats_A m c 1) (after_factor m c) t d

/-! ## The body obligation -/

/-- What the body is called with at point `t`, window by window, -/
def pointPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def pointPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' buffers hold their blocks, so the body's triple applies; the invariant
    and the core's debt pass through unread. -/
theorem point_sound (c : Dev nD) (t : Fin cfg0.N) :
    pointPre m c t ⊢ wp frame (wpE (defs₀ (F := F)) Variants.none c none) Set.univ (bodyAt0 t) (fun _ => pointPost m c t) := by
  unfold pointPre pointPost bodyAt0
  simp only [before_rows, before_factor]
  rw [show (dats m 0 c).Φ t.succ = (dats m 0 c).Φ t.castSucc from rfl,
    show (dats m 0 c).owesAt () t.succ = (dats m 0 c).owesAt () t.castSucc from rfl,
    after_rows, after_factor, after_product]
  iintro ⟨HΦ, Ho, ⟨%d0, H0⟩, ⟨%d1, H1⟩, ⟨%d2, H2⟩⟩
  iapply (body_sound c Set.univ (grid0.coords t) _ _ _ _ _ _ (blockAt m c 0 t) (blockAt m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact point_sound m c t

/-! ## The run -/

set_option maxHeartbeats 8000000 in
set_option backward.isDefEq.respectTransparency.types false in
/-- From any memory with zero counters every weakly fair execution of @main terminates; the region's arrays end
    at what the write-backs assemble from the proof data, every other unscoped buffer at what the later host
    operations compute. -/
theorem run_main : θ_run defs (onTc (τ := τ) (main (F := F))) (s₀ m ρ)
    (Pipeline.FramePost cfgs (dats m) 0 (Pipeline.afterTail₀ cfgs (dats m) 0 (entry m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := entry m) (opss := tailOps) (hsub := tail_sub) (hfresh := tail_fresh) (hkeep := tail_keeps)
    (hmain := main_around m Variants.none) (hA := dats_A m) (hΦ := fun _ _ => rfl)

end Cert.KernelIdeal.Lin

end
-- ==== Proof.LinArgs.lean ====
/-
  The arguments of @main end as they were launched, so the frame claim holds.

  Two of the nine arguments, the row array and the factor, are arrays of the region: each is an INPUT window's
  array, which no write-back touches, and the region found it as launched. The other seven are no array of the
  region and no host operation's result, before the region or after it, so they pass through everything.
-/
import proofs.«429869_j43018392436869_2_alg».proof.Proof.LinRun

set_option maxRecDepth 16384

noncomputable section

namespace Cert.KernelIdeal.Lin

open Idealize.ShloMosaic Idealize.ShloMosaic.TcCoe
open Idealize.SL Idealize.SL.Sem
open Idealize.ShloMosaic.Pipeline (Dat)
open Cert.KernelIdeal Cert.KernelIdeal.Gen

variable {F : FTy → Type} [FloatOps F]

variable (m : (ℓ : Loc nD τ sig) → Buf (Elt F) ℓ) (ρ : Dev nD → PrngReg)

set_option maxHeartbeats 4000000 in
/-- An argument other than the row array and the factor is as launched after the later host operations: none
    of them writes it, it is no array of the region, and the region found it as launched. -/
theorem tail_arg (a : Ref sig .tc)
    (ha : a = main_arg2 ∨ a = main_arg3 ∨ a = main_arg4 ∨ a = main_arg5 ∨ a = main_arg6 ∨ a = main_arg7 ∨ a = main_arg8)
    (c : Dev nD) : Pipeline.afterTail₀ cfgs (dats m) 0 (entry m) tailOps c a = m ((c : Thread nD τ).loc a) := by
  unfold Pipeline.afterTail₀
  rw [StableHlo.after_of_forall_not_mem (b := Proc.devRef .tc a) _ _ (List.forall_iff_forall_mem.mp (by
      simp only [hostOps1, hostOps1_1, hostOps1_2, hostOps1_3, List.flatten_cons, List.flatten_nil, List.append_nil, List.cons_append,
        List.nil_append, List.Forall, StableHlo.nullary_writes, StableHlo.unary_writes, StableHlo.binary_writes, StableHlo.ternary_writes,
        StableHlo.reshape_writes, Finset.mem_singleton]
      rcases ha with rfl | rfl | rfl | rfl | rfl | rfl | rfl <;>
      · repeat' apply And.intro
        all_goals exact StableHlo.devRef_ne_of_ne (by decide))),
    Pipeline.withArrays_of_ne _ c (entry m c) _ a (by
      rcases ha with rfl | rfl | rfl | rfl | rfl | rfl | rfl <;> decide)]
  exact entry_arg m a (by
    rcases ha with rfl | rfl | rfl | rfl | rfl | rfl | rfl
    · exact .inr (.inr (.inl rfl))
    · exact .inr (.inr (.inr (.inl rfl)))
    · exact .inr (.inr (.inr (.inr (.inl rfl))))
    · exact .inr (.inr (.inr (.inr (.inr (.inl rfl)))))
    · exact .inr (.inr (.inr (.inr (.inr (.inr (.inl rfl))))))
    · exact .inr (.inr (.inr (.inr (.inr (.inr (.inr (.inl rfl)))))))
    · exact .inr (.inr (.inr (.inr (.inr (.inr (.inr (.inr rfl)))))))) c

/-- What the run's post says of the nine arguments. -/
theorem args_of_post (r : PUnit × MemSt nD τ sig (Elt F))
    (h : Pipeline.FramePost cfgs (dats m) 0 (Pipeline.afterTail₀ cfgs (dats m) 0 (entry m) tailOps) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  ⟨((h c).1 0).trans (((dats m 0 c).arrAt_in 0 rfl _).trans ((dats_A m c 0).trans (entry_arg m main_arg0 (.inl rfl) c))),
   ((h c).1 1).trans (((dats m 0 c).arrAt_in 1 rfl _).trans ((dats_A m c 1).trans (entry_arg m main_arg1 (.inr (.inl rfl)) c))),
   ((h c).2 main_arg2 (Pipeline.mem_restRefs_of main_arg2 (by decide) (by decide))).trans (tail_arg m main_arg2 (.inl rfl) c),
   ((h c).2 main_arg3 (Pipeline.mem_restRefs_of main_arg3 (by decide) (by decide))).trans (tail_arg m main_arg3 (.inr (.inl rfl)) c),
   ((h c).2 main_arg4 (Pipeline.mem_restRefs_of main_arg4 (by decide) (by decide))).trans (tail_arg m main_arg4 (.inr (.inr (.inl rfl))) c),
   ((h c).2 main_arg5 (Pipeline.mem_restRefs_of main_arg5 (by decide) (by decide))).trans (tail_arg m main_arg5 (.inr (.inr (.inr (.inl rfl)))) c),
   ((h c).2 main_arg6 (Pipeline.mem_restRefs_of main_arg6 (by decide) (by decide))).trans (tail_arg m main_arg6 (.inr (.inr (.inr (.inr (.inl rfl))))) c),
   ((h c).2 main_arg7 (Pipeline.mem_restRefs_of main_arg7 (by decide) (by decide))).trans (tail_arg m main_arg7 (.inr (.inr (.inr (.inr (.inr (.inl rfl)))))) c),
   ((h c).2 main_arg8 (Pipeline.mem_restRefs_of main_arg8 (by decide) (by decide))).trans (tail_arg m main_arg8 (.inr (.inr (.inr (.inr (.inr (.inr rfl)))))) c)⟩

/-- THE FRAME: every weakly fair execution of @main terminates without a fault and the nine arguments end as
    they were launched — at any float instance, from any memory with zero counters. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => args_of_post m r h c) (run_main m ρ)

end Cert.KernelIdeal.Lin

end
-- ==== Proof.LinFrameBits.lean ====
/-
  The frame of the program: @main is four index-preparing host operations, ONE pallas region (a
  row-tiled matrix product, five row blocks of 20000 rows, the 64 x 64 factor resident), and four
  stretches of host operations after it (two row gathers with their range masks, two row
  scatter-adds, the bias, the final row scatter).

  The region's body loads its row block and the factor whole, and stores their product over the whole
  output block: after the body the output's staging buffer holds that one payload of the two input
  blocks. With this as the pipeline's proof data, every weakly fair execution of @main terminates
  without a fault; the region's output array ends at what the write-backs assemble, every other
  unscoped buffer at what the later host operations compute from it, and no host operation writes an
  argument of @main, so the nine arguments end as they were launched.
-/
import proofs.«429869_j43018392436869_2_alg».proof.Proof.Gen.Kernel.Launch
import proofs.«429869_j43018392436869_2_alg».proof.Proof.Gen.Kernel.Skeleton
import proofs.«429869_j43018392436869_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Lin

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The TensorCore buffers of core `c` when the region is entered: the launch contents after the four
    operations that cut the edge list into its source and destination rows. -/
abbrev entry (c : Dev nD) : Valuation τ sig (Elt F) := StableHlo.after (List.flatten [hostOps0]) (fun b => m (c, b))
/-- The same, read at one buffer. -/
abbrev entryAt (c : Dev nD) (b : Ref sig .tc) : Buf (Elt F) ((c : Thread nD τ).loc b) := entry m c (Proc.devRef .tc b)

/-- The host operations after the region, stretch by stretch: the first gather with its mask, the first
    scatter-add and the bias, the second gather with its mask, the second scatter-add and the final scatter. -/
abbrev tailOps : List (List (HloOp τ sig (Elt F))) := [hostOps1, hostOps1_1, hostOps1_2, hostOps1_3]

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor

set_option maxHeartbeats 4000000 in
/-- @main is the four leading operations, the region, and then the later stretches in order. -/
theorem main_around (𝒱₀ : Variants) : Pipeline.HMainK (Ix := Unit) (Name := ℕ) (U := UR sig nD τ) (Lvl := ℕ) cfgs 0 defs₀ 𝒱₀ m (main (F := F)) (entryAt m)
      (fun _ => Pipeline.chain [StableHlo.seq hostOps1, StableHlo.seq hostOps1_1, StableHlo.seq hostOps1_2, StableHlo.seq hostOps1_3]) :=
  Pipeline.hmain_around cfgs 0 defs₀ 𝒱₀ m main [hostOps0] tailOps (by simp only [List.Forall]; exact hostOps0_sub)
    (by simp only [List.Forall]; exact hostOps0_fresh) main_chain

/-- A later operation touches only the region's three arrays and the buffers that bypass the region. -/
theorem tail_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)

/-- None allocates. -/
theorem tail_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop

/-- Each writes its own result buffer, which is none of the region's three arrays (the rows, the factor,
    the product). -/
theorem keeps1 : (hostOps1 : List (HloOp τ sig (Elt F))).Forall fun op =>
    ∀ w, Proc.devRef .tc (Pipeline.arrRef spec0 w) ∉ op.writes := by
  simp only [hostOps1, List.Forall, StableHlo.nullary_writes, StableHlo.unary_writes, StableHlo.binary_writes,
    StableHlo.ternary_writes, StableHlo.reshape_writes, Finset.mem_singleton]
  repeat' apply And.intro
  all_goals intro w; fin_cases w <;> exact StableHlo.devRef_ne_of_ne (by decide)
theorem keeps1_1 : (hostOps1_1 : List (HloOp τ sig (Elt F))).Forall fun op =>
    ∀ w, Proc.devRef .tc (Pipeline.arrRef spec0 w) ∉ op.writes := by
  simp only [hostOps1_1, List.Forall, StableHlo.nullary_writes, StableHlo.unary_writes, StableHlo.binary_writes,
    StableHlo.ternary_writes, StableHlo.reshape_writes, Finset.mem_singleton]
  repeat' apply And.intro
  all_goals intro w; fin_cases w <;> exact StableHlo.devRef_ne_of_ne (by decide)
theorem keeps1_2 : (hostOps1_2 : List (HloOp τ sig (Elt F))).Forall fun op =>
    ∀ w, Proc.devRef .tc (Pipeline.arrRef spec0 w) ∉ op.writes := by
  simp only [hostOps1_2, List.Forall, StableHlo.nullary_writes, StableHlo.unary_writes, StableHlo.binary_writes,
    StableHlo.ternary_writes, StableHlo.reshape_writes, Finset.mem_singleton]
  repeat' apply And.intro
  all_goals intro w; fin_cases w <;> exact StableHlo.devRef_ne_of_ne (by decide)
theorem keeps1_3 : (hostOps1_3 : List (HloOp τ sig (Elt F))).Forall fun op =>
    ∀ w, Proc.devRef .tc (Pipeline.arrRef spec0 w) ∉ op.writes := by
  simp only [hostOps1_3, List.Forall, StableHlo.nullary_writes, StableHlo.unary_writes, StableHlo.binary_writes,
    StableHlo.ternary_writes, StableHlo.reshape_writes, Finset.mem_singleton]
  repeat' apply And.intro
  all_goals intro w; fin_cases w <;> exact StableHlo.devRef_ne_of_ne (by decide)

theorem tail_keeps : ∀ ops ∈ (tailOps : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl | rfl
  · exact (List.forall_iff_forall_mem.mp keeps1) op hop
  · exact (List.forall_iff_forall_mem.mp keeps1_1) op hop
  · exact (List.forall_iff_forall_mem.mp keeps1_2) op hop
  · exact (List.forall_iff_forall_mem.mp keeps1_3) op hop

/-! ## No host operation writes an argument -/

/-- An argument `a` of @main is not the result buffer of any of the four leading operations: the region
    finds it as launched. -/
theorem entry_arg (a : Ref sig .tc)
    (ha : a = main_arg0 ∨ a = main_arg1 ∨ a = main_arg2 ∨ a = main_arg3 ∨ a = main_arg4 ∨ a = main_arg5 ∨ a = main_arg6 ∨ a = main_arg7 ∨ a = main_arg8)
    (c : Dev nD) : entryAt m c a = m ((c : Thread nD τ).loc a) :=
  StableHlo.after_of_forall_not_mem (b := Proc.devRef .tc a) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.reshape_writes, Finset.mem_singleton]
    rcases ha with rfl | rfl | rfl | rfl | rfl | rfl | rfl | rfl | rfl <;>
    · repeat' apply And.intro
      all_goals exact StableHlo.devRef_ne_of_ne (by decide)))

end Cert.Kernel.Lin

end
-- ==== Proof.LinRunBits.lean ====
/-
  The region of the program and the run of @main around it.

  At grid point `t` the body is handed row block `t` of the row array (20000 rows), the whole 64 x 64
  factor, and the output's staging buffer; it loads the two inputs whole and stores ONE payload, their
  matrix product, over the whole output block. So the proof data says: after the body each input's buffer
  still holds its block, and the output's buffer holds that payload of the two blocks. The factor is
  fetched at the first point only and keeps its place afterwards, because its block index never moves.

  With this, every weakly fair execution of @main terminates without a fault; and since no host operation,
  before or after the region, writes an argument of @main, and the region writes back only the product
  array, all nine arguments end as they were launched.
-/
import proofs.«429869_j43018392436869_2_alg».proof.Proof.LinFrameBits

set_option maxRecDepth 16384

noncomputable section

namespace Cert.Kernel.Lin

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at grid point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (entryAt m c (Pipeline.arrRef spec0 w))

/-- The row window's staging buffer holds row block `t` when the body starts at `t`, for any proof data over the
    region-entry arrays whose body leaves that block in place. -/
theorem rows_staged {c : Dev nD} (dat : Dat τ (Elt F) Unit ℕ (UR sig nD τ) ℕ cfg0 c) (hA : dat.A 0 = entryAt m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- The factor's staging buffer holds the factor at every point, though it is fetched only at the first: its
    block index does not move. -/
theorem factor_staged {c : Dev nD} (dat : Dat τ (Elt F) Unit ℕ (UR sig nD τ) ℕ cfg0 c) (hA : dat.A 1 = entryAt m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-! ## What the body leaves in the output's buffer -/

/-- The whole output block, as the one rectangle the body stores through. -/
abbrev wholeBlock : Rect S20000x64 := Rect.unit (s := S20000x64) ![0, 0] S20000x64.size inb_S20000x64_S20000x64_0_0
/-- The whole factor, as the rectangle the body loads it through. -/
abbrev wholeFactor : Rect S64x64 := Rect.unit (s := S64x64) ![0, 0] S64x64.size inb_S64x64_S64x64_0_0

/-- The output's staging buffer after the body: the one stored piece, the product payload of the loaded row
    block and factor. -/
def productBlock (x0 : Vec F S20000x64 .f32) (x1 : Vec F S64x64 .f32) : Vec F S20000x64 .f32 :=
  View.canon [⟨wholeBlock, k0_pay1 (View.ld x0 wholeBlock) (View.ld x1 wholeFactor)⟩]

/-- That one store covers the buffer. -/
theorem store_covers (p0 : Vec F S20000x64 .f32) (y : S20000x64.Idx) :
    ∃ pc ∈ ([⟨wholeBlock, p0⟩] : List (View.Piece (Elt F) S20000x64 .f32)), y ∈ pc.1.set :=
  View.cover_of_tiled [⟨wholeBlock, p0⟩] S20000x64.size (by rfl) y

/-! ## The body's triple -/

set_option maxHeartbeats 1000000 in
/-- On whole staging memrefs — the inputs' at contents `x0`, `x1`, the output's at anything — the body runs to its
    continuation with the inputs' as they were and the output's at `productBlock x0 x1`. -/
theorem body_sound (c : Dev nD) (E : Set ℕ) (i : grid0.Coords)
    (arg1 : Memref sig .tc .vmem S20000x64 .f32) (harg1 : arg1.IsWhole) (arg2 : Memref sig .tc .vmem S64x64 .f32) (harg2 : arg2.IsWhole)
    (arg3 : Memref sig .tc .vmem S20000x64 .f32) (harg3 : arg3.IsWhole)
    (x0 : Vec F S20000x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (productBlock x0 x1)) -∗ K ⟨⟩))
      ⊢ wp frame (wpE (defs₀ (F := F)) Variants.none c none) E (cc0__linear_kernel i arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (store_covers _)

/-! ## The pipeline's proof data -/

/-- On core `c`: the arrays as the region finds them; after the body at point `t` the row window's buffer at row
    block `t`, the factor's at the factor, the output's at their product payload; the invariant the scoped rest
    and the generator register, untouched; nothing owed; full shares. -/
def dats (_ : Fin 1) (c : Dev nD) : Dat τ (Elt F) Unit ℕ (UR sig nD τ) ℕ cfg0 c where
  A w := entryAt m c (Pipeline.arrRef spec0 w)
  after w t := match w with
    | ⟨0, _⟩ => blockAt m c 0 t
    | ⟨1, _⟩ => blockAt m c 1 t
    | ⟨2, _⟩ => productBlock (blockAt m c 0 t) (blockAt m c 1 t)
  Φ _ := Pipeline.ΦA spec0 c
  q _ := fullShare
  owed _ := 0

theorem dats_A (c : Dev nD) (w : Fin cfg0.W) : (dats m 0 c).A w = entryAt m c (Pipeline.arrRef spec0 w) := by
  dsimp only [dats]

theorem after_rows (c : Dev nD) (t : Fin cfg0.N) : (dats m 0 c).after 0 t = blockAt m c 0 t := by dsimp only [dats]
theorem after_factor (c : Dev nD) (t : Fin cfg0.N) : (dats m 0 c).after 1 t = blockAt m c 1 t := by dsimp only [dats]
theorem after_product (c : Dev nD) (t : Fin cfg0.N) :
    (dats m 0 c).after 2 t = productBlock (blockAt m c 0 t) (blockAt m c 1 t) := by dsimp only [dats]

theorem before_rows (c : Dev nD) (t : Fin cfg0.N) (d) : (dats m 0 c).before 0 t d = blockAt m c 0 t :=
  rows_staged m (dats m 0 c) (dats_A m c 0) (after_rows m c) t d
theorem before_factor (c : Dev nD) (t : Fin cfg0.N) (d) : (dats m 0 c).before 1 t d = blockAt m c 1 t :=
  factor_staged m (dats m 0 c) (dats_A m c 1) (after_factor m c) t d

/-! ## The body obligation -/

/-- What the body is called with at point `t`, window by window, -/
def pointPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def pointPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' buffers hold their blocks, so the body's triple applies; the invariant
    and the core's debt pass through unread. -/
theorem point_sound (c : Dev nD) (t : Fin cfg0.N) :
    pointPre m c t ⊢ wp frame (wpE (defs₀ (F := F)) Variants.none c none) Set.univ (bodyAt0 t) (fun _ => pointPost m c t) := by
  unfold pointPre pointPost bodyAt0
  simp only [before_rows, before_factor]
  rw [show (dats m 0 c).Φ t.succ = (dats m 0 c).Φ t.castSucc from rfl,
    show (dats m 0 c).owesAt () t.succ = (dats m 0 c).owesAt () t.castSucc from rfl,
    after_rows, after_factor, after_product]
  iintro ⟨HΦ, Ho, ⟨%d0, H0⟩, ⟨%d1, H1⟩, ⟨%d2, H2⟩⟩
  iapply (body_sound c Set.univ (grid0.coords t) _ _ _ _ _ _ (blockAt m c 0 t) (blockAt m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact point_sound m c t

/-! ## The run -/

set_option maxHeartbeats 8000000 in
set_option backward.isDefEq.respectTransparency.types false in
/-- From any memory with zero counters every weakly fair execution of @main terminates; the region's arrays end
    at what the write-backs assemble from the proof data, every other unscoped buffer at what the later host
    operations compute. -/
theorem run_main : θ_run defs (onTc (τ := τ) (main (F := F))) (s₀ m ρ)
    (Pipeline.FramePost cfgs (dats m) 0 (Pipeline.afterTail₀ cfgs (dats m) 0 (entry m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := entry m) (opss := tailOps) (hsub := tail_sub) (hfresh := tail_fresh) (hkeep := tail_keeps)
    (hmain := main_around m Variants.none) (hA := dats_A m) (hΦ := fun _ _ => rfl)

end Cert.Kernel.Lin

end
-- ==== Proof.LinArgsBits.lean ====
/-
  The arguments of @main end as they were launched, so the frame claim holds.

  Two of the nine arguments, the row array and the factor, are arrays of the region: each is an INPUT window's
  array, which no write-back touches, and the region found it as launched. The other seven are no array of the
  region and no host operation's result, before the region or after it, so they pass through everything.
-/
import proofs.«429869_j43018392436869_2_alg».proof.Proof.LinRunBits

set_option maxRecDepth 16384

noncomputable section

namespace Cert.Kernel.Lin

open Idealize.ShloMosaic Idealize.ShloMosaic.TcCoe
open Idealize.SL Idealize.SL.Sem
open Idealize.ShloMosaic.Pipeline (Dat)
open Cert.Kernel Cert.Kernel.Gen

variable {F : FTy → Type} [FloatOps F]

variable (m : (ℓ : Loc nD τ sig) → Buf (Elt F) ℓ) (ρ : Dev nD → PrngReg)

set_option maxHeartbeats 4000000 in
/-- An argument other than the row array and the factor is as launched after the later host operations: none
    of them writes it, it is no array of the region, and the region found it as launched. -/
theorem tail_arg (a : Ref sig .tc)
    (ha : a = main_arg2 ∨ a = main_arg3 ∨ a = main_arg4 ∨ a = main_arg5 ∨ a = main_arg6 ∨ a = main_arg7 ∨ a = main_arg8)
    (c : Dev nD) : Pipeline.afterTail₀ cfgs (dats m) 0 (entry m) tailOps c a = m ((c : Thread nD τ).loc a) := by
  unfold Pipeline.afterTail₀
  rw [StableHlo.after_of_forall_not_mem (b := Proc.devRef .tc a) _ _ (List.forall_iff_forall_mem.mp (by
      simp only [hostOps1, hostOps1_1, hostOps1_2, hostOps1_3, List.flatten_cons, List.flatten_nil, List.append_nil, List.cons_append,
        List.nil_append, List.Forall, StableHlo.nullary_writes, StableHlo.unary_writes, StableHlo.binary_writes, StableHlo.ternary_writes,
        StableHlo.reshape_writes, Finset.mem_singleton]
      rcases ha with rfl | rfl | rfl | rfl | rfl | rfl | rfl <;>
      · repeat' apply And.intro
        all_goals exact StableHlo.devRef_ne_of_ne (by decide))),
    Pipeline.withArrays_of_ne _ c (entry m c) _ a (by
      rcases ha with rfl | rfl | rfl | rfl | rfl | rfl | rfl <;> decide)]
  exact entry_arg m a (by
    rcases ha with rfl | rfl | rfl | rfl | rfl | rfl | rfl
    · exact .inr (.inr (.inl rfl))
    · exact .inr (.inr (.inr (.inl rfl)))
    · exact .inr (.inr (.inr (.inr (.inl rfl))))
    · exact .inr (.inr (.inr (.inr (.inr (.inl rfl)))))
    · exact .inr (.inr (.inr (.inr (.inr (.inr (.inl rfl))))))
    · exact .inr (.inr (.inr (.inr (.inr (.inr (.inr (.inl rfl)))))))
    · exact .inr (.inr (.inr (.inr (.inr (.inr (.inr (.inr rfl)))))))) c

/-- What the run's post says of the nine arguments. -/
theorem args_of_post (r : PUnit × MemSt nD τ sig (Elt F))
    (h : Pipeline.FramePost cfgs (dats m) 0 (Pipeline.afterTail₀ cfgs (dats m) 0 (entry m) tailOps) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  ⟨((h c).1 0).trans (((dats m 0 c).arrAt_in 0 rfl _).trans ((dats_A m c 0).trans (entry_arg m main_arg0 (.inl rfl) c))),
   ((h c).1 1).trans (((dats m 0 c).arrAt_in 1 rfl _).trans ((dats_A m c 1).trans (entry_arg m main_arg1 (.inr (.inl rfl)) c))),
   ((h c).2 main_arg2 (Pipeline.mem_restRefs_of main_arg2 (by decide) (by decide))).trans (tail_arg m main_arg2 (.inl rfl) c),
   ((h c).2 main_arg3 (Pipeline.mem_restRefs_of main_arg3 (by decide) (by decide))).trans (tail_arg m main_arg3 (.inr (.inl rfl)) c),
   ((h c).2 main_arg4 (Pipeline.mem_restRefs_of main_arg4 (by decide) (by decide))).trans (tail_arg m main_arg4 (.inr (.inr (.inl rfl))) c),
   ((h c).2 main_arg5 (Pipeline.mem_restRefs_of main_arg5 (by decide) (by decide))).trans (tail_arg m main_arg5 (.inr (.inr (.inr (.inl rfl)))) c),
   ((h c).2 main_arg6 (Pipeline.mem_restRefs_of main_arg6 (by decide) (by decide))).trans (tail_arg m main_arg6 (.inr (.inr (.inr (.inr (.inl rfl))))) c),
   ((h c).2 main_arg7 (Pipeline.mem_restRefs_of main_arg7 (by decide) (by decide))).trans (tail_arg m main_arg7 (.inr (.inr (.inr (.inr (.inr (.inl rfl)))))) c),
   ((h c).2 main_arg8 (Pipeline.mem_restRefs_of main_arg8 (by decide) (by decide))).trans (tail_arg m main_arg8 (.inr (.inr (.inr (.inr (.inr (.inr rfl)))))) c)⟩

/-- THE FRAME: every weakly fair execution of @main terminates without a fault and the nine arguments end as
    they were launched — at any float instance, from any memory with zero counters. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => args_of_post m r h c) (run_main m ρ)

end Cert.Kernel.Lin

end
-- ==== Proof.LinValue.lean ====
/-
  The product array: what the region leaves in its output array, entry by entry.
-/
import proofs.«429869_j43018392436869_2_alg».proof.Proof.LinRun
import Idealize.ShloMosaic.Lib.ValueIdx
import Idealize.ShloMosaic.Lib.Pipeline.Value
import Idealize.ShloMosaic.PureOps.Ideal.Laws

noncomputable section

namespace Cert.KernelIdeal.Lin

open Idealize.ShloMosaic Idealize.ShloMosaic.TcCoe Idealize.SL.Sem
open Idealize.ShloMosaic.Pipeline (Dat)
open Cert.KernelIdeal Cert.KernelIdeal.Gen
open scoped BigOperators

/-- The row array as launched, at its literal type. -/
abbrev rowsArr (m : (ℓ : Loc nD τ sig) → Buf (Elt Ideal) ℓ) (c : Dev nD) : FVec Ideal S100000x64 .f32 := m ((c : Thread nD τ).loc main_arg0)
/-- The factor as launched, at its literal type. -/
abbrev factorArr (m : (ℓ : Loc nD τ sig) → Buf (Elt Ideal) ℓ) (c : Dev nD) : FVec Ideal S64x64 .f32 := m ((c : Thread nD τ).loc main_arg1)
/-- The region's output array after the run, at its literal type. -/
abbrev productArr (m : (ℓ : Loc nD τ sig) → Buf (Elt Ideal) ℓ) (c : Dev nD) : FVec Ideal S100000x64 .f32 := (dats m 0 c).arrAt 2 cfg0.N

/-! ## The payload at an index

The body's one payload is the matrix product of its two loaded blocks: the narrowing of either operand
to the short format is the identity at the ideal values, and the product into a zero accumulator is the
plain sum over the one contracted axis. -/

/-- The left operand's index at output index `i` and contraction index `q`: its row is the output's row, -/
theorem lhs_pay_0 (i : S20000x64.Idx) (q : dot_S20000x64_S64x64_S20000x64_1_0_0_1_n_n.contr.Idx) :
    (dot_S20000x64_S64x64_S20000x64_1_0_0_1_n_n.lhsIdx i q 0).val = (i 0).val := by
  unfold DotDims.lhsIdx
  rw [dif_neg (show ¬(0 : Fin S20000x64.rank) ∈ dot_S20000x64_S64x64_S20000x64_1_0_0_1_n_n.lhsBatch by decide), dif_pos (show (0 : Fin S20000x64.rank) ∈ dot_S20000x64_S64x64_S20000x64_1_0_0_1_n_n.lhsNonContracting by decide)]
  rfl
/-- its column the contracted coordinate. -/
theorem lhs_pay_1 (i : S20000x64.Idx) (q : dot_S20000x64_S64x64_S20000x64_1_0_0_1_n_n.contr.Idx) :
    (dot_S20000x64_S64x64_S20000x64_1_0_0_1_n_n.lhsIdx i q 1).val = (q ⟨0, by decide⟩).val :=
  dot_S20000x64_S64x64_S20000x64_1_0_0_1_n_n.lhsIdx_val_of_single rfl i q
/-- The right operand's index: its row is the contracted coordinate, -/
theorem rhs_pay_0 (i : S20000x64.Idx) (q : dot_S20000x64_S64x64_S20000x64_1_0_0_1_n_n.contr.Idx) :
    (dot_S20000x64_S64x64_S20000x64_1_0_0_1_n_n.rhsIdx i q 0).val = (q ⟨0, by decide⟩).val :=
  dot_S20000x64_S64x64_S20000x64_1_0_0_1_n_n.rhsIdx_val_of_single rfl i q
/-- its column the output's column. -/
theorem rhs_pay_1 (i : S20000x64.Idx) (q : dot_S20000x64_S64x64_S20000x64_1_0_0_1_n_n.contr.Idx) :
    (dot_S20000x64_S64x64_S20000x64_1_0_0_1_n_n.rhsIdx i q 1).val = (i 1).val := by
  unfold DotDims.rhsIdx
  rw [dif_neg (show ¬(1 : Fin S64x64.rank) ∈ dot_S20000x64_S64x64_S20000x64_1_0_0_1_n_n.rhsBatch by decide), dif_pos (show (1 : Fin S64x64.rank) ∈ dot_S20000x64_S64x64_S20000x64_1_0_0_1_n_n.rhsNonContracting by decide)]
  rfl

/-- Entry (p, q) of the payload: row p of the loaded row block times column q of the loaded factor. -/
theorem payload_apply (x0 : Vec Ideal S20000x64 .f32) (x1 : Vec Ideal S64x64 .f32) (p : Fin 20000) (q : Fin 64) :
    k0_pay1 x0 x1 (ValueIdx.ix2 p q) = ∑ k : Fin 64, x0 (ValueIdx.ix2 p k) * x1 (ValueIdx.ix2 k q) := by
  unfold k0_pay1
  simp only [matmul]
  rw [Ideal.matmul_constant_zero_apply, ← Equiv.sum_comp (ValueIdx.contrEquiv1 dot_S20000x64_S64x64_S20000x64_1_0_0_1_n_n 64 rfl rfl).symm]
  refine Finset.sum_congr rfl fun k _ => ?_
  have hk := ValueIdx.contrEquiv1_symm_val dot_S20000x64_S64x64_S20000x64_1_0_0_1_n_n 64 rfl rfl k
  have el : dot_S20000x64_S64x64_S20000x64_1_0_0_1_n_n.lhsIdx (ValueIdx.ix2 p q) ((ValueIdx.contrEquiv1 dot_S20000x64_S64x64_S20000x64_1_0_0_1_n_n 64 rfl rfl).symm k) = ValueIdx.ix2 p k := funext fun a => Fin.ext (by
    match a with
    | ⟨0, _⟩ => exact lhs_pay_0 _ _
    | ⟨1, _⟩ => exact (lhs_pay_1 _ _).trans hk)
  have er : dot_S20000x64_S64x64_S20000x64_1_0_0_1_n_n.rhsIdx (ValueIdx.ix2 p q) ((ValueIdx.contrEquiv1 dot_S20000x64_S64x64_S20000x64_1_0_0_1_n_n 64 rfl rfl).symm k) = ValueIdx.ix2 k q := funext fun a => Fin.ext (by
    match a with
    | ⟨0, _⟩ => exact (rhs_pay_0 _ _).trans hk
    | ⟨1, _⟩ => exact rhs_pay_1 _ _)
  rw [ValueIdx.truncf_apply, ValueIdx.truncf_apply, el, er]

/-- The same at any index of the block, its coordinates named. -/
theorem payload_at (x0 : Vec Ideal S20000x64 .f32) (x1 : Vec Ideal S64x64 .f32) (y : S20000x64.Idx) :
    k0_pay1 x0 x1 y = ∑ k : Fin 64, x0 (ValueIdx.ix2 (⟨(y 0).val, (y 0).isLt⟩ : Fin 20000) k) * x1 (ValueIdx.ix2 k (⟨(y 1).val, (y 1).isLt⟩ : Fin 64)) := by
  obtain ⟨p, q, rfl⟩ : ∃ (p : Fin 20000) (q : Fin 64), y = ValueIdx.ix2 p q := ⟨y 0, y 1, ValueIdx.eq_ix2 y⟩
  exact payload_apply x0 x1 p q

/-! ## From blocks to the array -/

/-- The matrix product of a row array and a factor, as one function of the whole output array's index. -/
abbrev productOf (x : FVec Ideal S100000x64 .f32) (w : FVec Ideal S64x64 .f32) : FVec Ideal S100000x64 .f32 :=
  fun i => ∑ k : Fin 64, x (ValueIdx.ix2 (⟨(i 0).val, (i 0).isLt⟩ : Fin 100000) k) * w (ValueIdx.ix2 k (⟨(i 1).val, (i 1).isLt⟩ : Fin 64))

theorem zero_offsets : (![0, 0] : Fin 2 → Nat) = fun _ => 0 := funext fun a => by fin_cases a <;> rfl

/-- The block indices over the grid: the row window and the output window are at row block `t`, column block 0;
    the factor's window stays at block (0, 0). -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row block `t` of the row array as the region finds it, read at (p, k): the launched row array at row
    `20000 t + p`. -/
theorem rows_block_apply (m : (ℓ : Loc nD τ sig) → Buf (Elt Ideal) ℓ) (c : Dev nD) (t : Fin cfg0.N) (p : Fin 20000) (k : Fin 64)
    (r : Fin 100000) (hr : r.val = t.val * 20000 + p.val) :
    blockAt m c 0 t (ValueIdx.ix2 p k) = rowsArr m c (ValueIdx.ix2 r k) := by
  obtain ⟨e00, e01, -, -, -, -⟩ := block_indices t
  unfold blockAt
  rw [View.read_apply]
  show entryAt m c main_arg0 _ = m ((c : Thread nD τ).loc main_arg0) _
  rw [entry_arg m main_arg0 (.inl rfl) c]
  congr 1
  funext a
  apply Fin.ext
  match a with
  | ⟨0, _⟩ => show win0_0.index t (0 : Fin 2) * 20000 + 1 * p.val = r.val; rw [e00, hr]; omega
  | ⟨1, _⟩ => show win0_0.index t (1 : Fin 2) * 64 + 1 * k.val = k.val; rw [e01]; omega

/-- The factor's block at any point, read at (k, q): the launched factor there. -/
theorem factor_block_apply (m : (ℓ : Loc nD τ sig) → Buf (Elt Ideal) ℓ) (c : Dev nD) (t : Fin cfg0.N) (k q q' : Fin 64)
    (hq : q'.val = q.val) :
    blockAt m c 1 t (ValueIdx.ix2 k q) = factorArr m c (ValueIdx.ix2 k q') := by
  obtain ⟨-, -, e10, e11, -, -⟩ := block_indices t
  unfold blockAt
  rw [View.read_apply]
  show entryAt m c main_arg1 _ = m ((c : Thread nD τ).loc main_arg1) _
  rw [entry_arg m main_arg1 (.inr (.inl rfl)) c]
  congr 1
  funext a
  apply Fin.ext
  match a with
  | ⟨0, _⟩ => show win0_1.index t (0 : Fin 2) * 64 + 1 * k.val = k.val; rw [e10]; omega
  | ⟨1, _⟩ => show win0_1.index t (1 : Fin 2) * 64 + 1 * q.val = q'.val; rw [e11, hq]; omega

/-- What point `t` writes back is block `t` of the product of the row array and the factor as launched. -/
theorem flushed_eq (m : (ℓ : Loc nD τ sig) → Buf (Elt Ideal) ℓ) (c : Dev nD) (t : Fin cfg0.N) :
    (dats m 0 c).flushed 2 t = ((cfg0.win 2).blk t).view.read (Elt Ideal) (productOf (rowsArr m c) (factorArr m c)) := by
  show (cfg0.win 2).cut (grid0.coords t) ((dats m 0 c).after 2 t) = _
  rw [after_product]
  unfold productBlock
  rw [View.canon_unit_zero zero_offsets]
  simp only [View.ld_unit_zero (S := S20000x64) zero_offsets, View.ld_unit_zero (S := S64x64) zero_offsets]
  obtain ⟨-, -, -, -, e20, e21⟩ := block_indices t
  funext y
  refine (payload_at _ _ _).trans ?_
  rw [View.read_apply]
  show (∑ k : Fin 64, _ : EReal) = ∑ k : Fin 64, _
  refine Finset.sum_congr rfl fun k _ => ?_
  refine congrArg₂ (· * ·) (rows_block_apply m c t _ k _ ?_) (factor_block_apply m c t k _ _ ?_)
  · show win0_2.index t (0 : Fin 2) * 20000 + 1 * (y 0).val = t.val * 20000 + (y 0).val
    rw [e20]; omega
  · show win0_2.index t (1 : Fin 2) * 64 + 1 * (y 1).val = (y 1).val
    rw [e21]; omega

/-- An index of the output array is in point `t`'s block iff each coordinate is in the block's range on its axis. -/
theorem mem_block (t : Fin cfg0.N) (i : S100000x64.Idx) :
    i ∈ ((cfg0.win 2).blk t).view.set ↔ ∀ a : Fin 2, win0_2.index t a * S20000x64.size a ≤ (i a).val ∧ (i a).val < win0_2.index t a * S20000x64.size a + S20000x64.size a := by
  show i ∈ ((View.whole main_v4).slice (win0_2.rect t)).set ↔ _
  rw [View.set_slice_whole, Rect.mem_set_unit]
  exact Iff.rfl

/-- Every index of the output array is in some point's block, and every point writes back: row `r` is in row
    block `r / 20000`. -/
theorem covered (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 5 := N_0
  obtain ⟨t, ht⟩ : ∃ t : Fin cfg0.N, t.val = (i 0).val / 20000 := ⟨⟨(i 0).val / 20000, by rw [hN]; omega⟩, rfl⟩
  obtain ⟨-, -, -, -, e20, e21⟩ := block_indices t
  refine ⟨t, flush0_2 t, ?_⟩
  rw [mem_block]
  intro a
  match a with
  | ⟨0, _⟩ =>
    show win0_2.index t (0 : Fin 2) * 20000 ≤ (i 0).val ∧ (i 0).val < win0_2.index t (0 : Fin 2) * 20000 + 20000
    rw [e20, ht]; omega
  | ⟨1, _⟩ =>
    show win0_2.index t (1 : Fin 2) * 64 ≤ (i 1).val ∧ (i 1).val < win0_2.index t (1 : Fin 2) * 64 + 64
    rw [e21]; omega

/-- The output array after the run is the product of the row array and the factor as launched. -/
theorem product_array (m : (ℓ : Loc nD τ sig) → Buf (Elt Ideal) ℓ) (c : Dev nD) :
    productArr m c = productOf (rowsArr m c) (factorArr m c) :=
  (dats m 0 c).arrAt_eq_of_cover 2 (productOf (rowsArr m c) (factorArr m c)) (fun t _ => flushed_eq m c t) covered

/-- Entry (r, j) of the region's output array after the run, at the ideal values: row r of the row array times
    column j of the factor. -/
theorem product_array_apply (m : (ℓ : Loc nD τ sig) → Buf (Elt Ideal) ℓ) (c : Dev nD) (r : Fin 100000) (j : Fin 64) :
    productArr m c (ValueIdx.ix2 r j) = ∑ k : Fin 64, rowsArr m c (ValueIdx.ix2 r k) * factorArr m c (ValueIdx.ix2 k j) := by
  exact (congrFun (product_array m c) (ValueIdx.ix2 r j)).trans rfl

end Cert.KernelIdeal.Lin

end
-- ==== Proof.LinSpec.lean ====
/-
  The host operations after the region, as pure functions of their inputs (any float instance).

  * `wrapRows n i`: numpy's reading of a row number — a negative number counts from the end of an axis of
    `n` rows.
  * `gatherRows tbl i`: row `i e` (wrapped, then clamped by the gather) of a 100000-row table, for every
    list position `e`: plain indexing `tbl[i]`.
  * `takeRows tbl i`: the same rows where the wrapped number lies in 0 … 99999, and a NaN row elsewhere:
    `jnp.take` in its default mode.
  * `coarse xw b ei ea`: the coarse-node values, `h = segment_sum(ea · xw[src], dst) + b`, source and
    destination rows the two rows of the edge list `ei`.
  * `prolong rd h ps pd pa pf`: the fine-node result from the coarse values `h`:
    `segment_sum(pa · rd(h, ps), pd)` with rows `pf` then overwritten by `h`; `rd` is the row reader.
-/
import proofs.«429869_j43018392436869_2_alg».proof.Proof.Gen.KernelIdeal

noncomputable section

namespace Cert.KernelIdeal.Lin

open Idealize.ShloMosaic Cert.KernelIdeal
open Cert.KernelIdeal.Facts₀ Cert.KernelIdeal.Facts

variable {F : FTy → Type} [FloatOps F]

/-- Row 0 of the edge list: the source rows. -/
def srcRows (ei : IVec S2x1600000 32) : IVec S1600000 32 :=
  shapeCast S1600000 (extractStridedSlice S1x1600000 ![0, 0] ei slices_S2x1600000_S1x1600000_0_0) shapeCasts_S1x1600000_S1600000
/-- Row 1 of the edge list: the destination rows. -/
def dstRows (ei : IVec S2x1600000 32) : IVec S1600000 32 :=
  shapeCast S1600000 (extractStridedSlice S1x1600000 ![1, 0] ei slices_S2x1600000_S1x1600000_1_0) shapeCasts_S1x1600000_S1600000

/-- A negative row number counts from the end of an axis of `n` rows. -/
def wrapRows (n : BitVec 32) (i : IVec S1600000 32) : IVec S1600000 32 :=
  select (cmpi .slt i (broadcastInDim S1600000 ![] bcast_S_S1600000 (constantI S_ 32 0#32)))
    (addi i (broadcastInDim S1600000 ![] bcast_S_S1600000 (constantI S_ 32 n))) i

/-- A list of row numbers as a one-column index array. -/
def asColumn (i : IVec S1600000 32) : IVec S1600000x1 32 := broadcastInDim S1600000x1 ![0] bcast_S1600000_S1600000x1_0 i

/-- Plain indexing of a 100000-row table by a list of row numbers. -/
def gatherRows (tbl : FVec F S100000x64 .f32) (i : IVec S1600000 32) : FVec F S1600000x64 .f32 :=
  Host.gather gather_S100000x64_S1600000x1_S1600000x64_1_0_n_n_0_1_164 tbl (asColumn (wrapRows 100000#32 i))

/-- Which list positions hold a wrapped row number inside 0 … 99999. -/
def inRange (wc : IVec S1600000x1 32) : IVec S1600000 1 :=
  Host.reduce IntOp.andi
    (andi (cmpi .sge wc (broadcastInDim S1600000x1 ![] bcast_S_S1600000x1 (constantI S_ 32 0#32)))
      (cmpi .sle wc (broadcastInDim S1600000x1 ![0, 1] bcast_S1x1_S1600000x1_0_1 (broadcastInDim S1x1 ![1] bcast_S1_S1x1_1 (constantI S1 32 99999#32)))))
    (constantI S_ 1 1#1) reducesTo_S1600000x1_S1600000_d1 h_S_

/-- `jnp.take` in its default mode: the gathered row where the wrapped number is in range, a NaN row elsewhere. -/
def takeRows (tbl : FVec F S100000x64 .f32) (i : IVec S1600000 32) : FVec F S1600000x64 .f32 :=
  select (broadcastInDim S1600000x64 ![0] bcast_S1600000_S1600000x64_0 (inRange (asColumn (wrapRows 100000#32 i))))
    (Host.gather gather_S100000x64_S1600000x1_S1600000x64_1_0_n_n_0_1_164 tbl (asColumn (wrapRows 100000#32 i)))
    (broadcastInDim S1600000x64 ![] bcast_S_S1600000x64 (constant S_ .f32 0x7FC00000#32))

/-- One weight per list position, repeated along the 64 columns. -/
def perEdge (a : FVec F S1600000 .f32) : FVec F S1600000x64 .f32 :=
  broadcastInDim S1600000x64 ![0, 1] bcast_S1600000x1_S1600000x64_0_1 (broadcastInDim S1600000x1 ![0] bcast_S1600000_S1600000x1_0 a)

/-- The weighted messages summed into their destination rows, over a zero array of 100000 rows. -/
def sumToCoarse (dst : IVec S1600000 32) (msgs : FVec F S1600000x64 .f32) : FVec F S100000x64 .f32 :=
  Host.scatterAdd scatter_S100000x64_S1600000x1_S1600000x64_1_0_0_1
    (broadcastInDim S100000x64 ![] bcast_S_S100000x64 (constant S_ .f32 0x00000000#32)) (asColumn dst) msgs

/-- The bias, repeated along the 100000 rows. -/
def perRow (b : FVec F S64 .f32) : FVec F S100000x64 .f32 :=
  broadcastInDim S100000x64 ![0, 1] bcast_S1x64_S100000x64_0_1 (broadcastInDim S1x64 ![1] bcast_S64_S1x64_1 b)

/-- The coarse-node values from the product array `xw`: `segment_sum(ea · take(xw, src), dst) + b`. -/
def coarse (xw : FVec F S100000x64 .f32) (b : FVec F S64 .f32) (ei : IVec S2x1600000 32) (ea : FVec F S1600000 .f32) : FVec F S100000x64 .f32 :=
  addf (sumToCoarse (dstRows ei) (mulf (perEdge ea) (takeRows xw (srcRows ei)))) (perRow b)

/-- The injection rows: a negative number counts from the end of the 400000 fine rows. -/
def injectRows (pf : IVec S100000 32) : IVec S100000x1 32 :=
  broadcastInDim S100000x1 ![0] bcast_S100000_S100000x1_0
    (select (cmpi .slt pf (broadcastInDim S100000 ![] bcast_S_S100000 (constantI S_ 32 0#32)))
      (addi pf (broadcastInDim S100000 ![] bcast_S_S100000 (constantI S_ 32 400000#32))) pf)

/-- The fine-node result from the coarse values `h`, with `rd` the reader of `h`'s rows at the pooling sources:
    the weighted rows summed into their fine destination rows, then rows `pf` overwritten by `h`. -/
def prolong (rd : FVec F S100000x64 .f32 → IVec S1600000 32 → FVec F S1600000x64 .f32)
    (h : FVec F S100000x64 .f32) (ps pd : IVec S1600000 32) (pa : FVec F S1600000 .f32) (pf : IVec S100000 32) : FVec F S400000x64 .f32 :=
  Host.scatter scatter_S400000x64_S100000x1_S100000x64_1_0_0_1 (fun _ b => b)
    (Host.scatterAdd scatter_S400000x64_S1600000x1_S1600000x64_1_0_0_1
      (broadcastInDim S400000x64 ![] bcast_S_S400000x64 (constant S_ .f32 0x00000000#32)) (asColumn pd)
      (mulf (perEdge pa) (rd h ps)))
    (injectRows pf) h

/-- Everything after the region, from the product array and the arguments. -/
def afterRegion (xw : FVec F S100000x64 .f32) (b : FVec F S64 .f32) (ei : IVec S2x1600000 32) (ea : FVec F S1600000 .f32)
    (ps pd : IVec S1600000 32) (pa : FVec F S1600000 .f32) (pf : IVec S100000 32) : FVec F S400000x64 .f32 :=
  prolong takeRows (coarse xw b ei ea) ps pd pa pf

end Cert.KernelIdeal.Lin

end
-- ==== Proof.LinTail.lean ====
/-
  The result buffer after the host operations that follow the region, as the function `afterRegion` of the
  product array and the arguments.
-/
import proofs.«429869_j43018392436869_2_alg».proof.Proof.LinRun
import proofs.«429869_j43018392436869_2_alg».proof.Proof.LinSpec
import Idealize.ShloMosaic.Lib.StableHlo.Run

noncomputable section

namespace Cert.KernelIdeal.Lin

open Idealize.ShloMosaic Idealize.ShloMosaic.TcCoe Idealize.SL.Sem
open Idealize.ShloMosaic.Pipeline (Dat)
open Cert.KernelIdeal Cert.KernelIdeal.Gen

variable {F : FTy → Type} [FloatOps F]

/-! ## Typed references

The operations of an inlined function read and write their buffers through references that carry the tensor
type; contents pass through a transport along the type equation on the way in and on the way out. -/

/-- Contents moved to a typed reference's buffer type and back are unchanged. -/
theorem ofBuf_toBuf {T : BufTy} (x : StableHlo.TRef sig T) (v : T.Contents (Elt F)) : x.ofBuf (x.toBuf v) = v := by
  obtain ⟨r, h, h2, h3⟩ := x
  subst h
  rfl

/-- At a reference typed by its own buffer type the transport is the identity, in either direction. -/
theorem ofBuf_self (r : Ref sig .tc) (h1 : r.ty = r.ty) (h2 h3) (v : r.ty.Contents (Elt F)) :
    (StableHlo.TRef.of r h1 h2 h3 : StableHlo.TRef sig r.ty).ofBuf v = v := rfl
theorem toBuf_self (r : Ref sig .tc) (h1 : r.ty = r.ty) (h2 h3) (v : r.ty.Contents (Elt F)) :
    (StableHlo.TRef.of r h1 h2 h3 : StableHlo.TRef sig r.ty).toBuf v = v := rfl

/-- Two lines run one after the other. -/
theorem after_append (l₁ l₂ : List (HloOp τ sig (Elt F))) (V : Valuation τ sig (Elt F)) :
    StableHlo.after (l₁ ++ l₂) V = StableHlo.after l₂ (StableHlo.after l₁ V) := by
  induction l₁ generalizing V with
  | nil => rfl
  | cons op l ih => exact ih _

/-! ## The four stretches, each from any buffer contents `W` -/

section Stretches

variable (W : Valuation τ sig (Elt F))

/-- First stretch: the product array's rows taken at the source rows. -/
theorem take1 : StableHlo.after (hostOps1 (F := F)) W (Proc.devRef .tc main_v5)
    = takeRows (W (Proc.devRef .tc main_v4)) (W (Proc.devRef .tc main_v1)) := by
  simp only [hostOps1]
  after_results_simp
  simp only [ofBuf_toBuf]
  rw [ofBuf_self main_v1, ofBuf_self main_v4, toBuf_self main_v5]
  rfl

/-- The first stretch writes none of the buffers the later stretches read from before it. -/
theorem keep1 {b : Ref sig .tc}
    (hb : b = main_v3 ∨ b = main_arg2 ∨ b = main_arg4 ∨ b = main_arg5 ∨ b = main_arg6 ∨ b = main_arg7 ∨ b = main_arg8) :
    StableHlo.after (hostOps1 (F := F)) W (Proc.devRef .tc b) = W (Proc.devRef .tc b) := by
  rcases hb with rfl | rfl | rfl | rfl | rfl | rfl | rfl <;> (simp only [hostOps1]; after_results_simp)

/-- Second stretch: the weighted rows summed into their destination rows, plus the bias. -/
theorem coarse2 : StableHlo.after (hostOps1_1 (F := F)) W (Proc.devRef .tc main_v14)
    = addf (sumToCoarse (W (Proc.devRef .tc main_v3)) (mulf (perEdge (W (Proc.devRef .tc main_arg4))) (W (Proc.devRef .tc main_v5))))
        (perRow (W (Proc.devRef .tc main_arg2))) := by
  simp only [hostOps1_1]
  after_results_simp
  rfl

theorem keep2 {b : Ref sig .tc} (hb : b = main_arg5 ∨ b = main_arg6 ∨ b = main_arg7 ∨ b = main_arg8) :
    StableHlo.after (hostOps1_1 (F := F)) W (Proc.devRef .tc b) = W (Proc.devRef .tc b) := by
  rcases hb with rfl | rfl | rfl | rfl <;> (simp only [hostOps1_1]; after_results_simp)

/-- Third stretch: the coarse values' rows taken at the pooling sources. -/
theorem take3 : StableHlo.after (hostOps1_2 (F := F)) W (Proc.devRef .tc main_v15)
    = takeRows (W (Proc.devRef .tc main_v14)) (W (Proc.devRef .tc main_arg5)) := by
  simp only [hostOps1_2]
  after_results_simp
  simp only [ofBuf_toBuf]
  rw [ofBuf_self main_arg5, ofBuf_self main_v14, toBuf_self main_v15]
  rfl

theorem keep3 {b : Ref sig .tc} (hb : b = main_v14 ∨ b = main_arg6 ∨ b = main_arg7 ∨ b = main_arg8) :
    StableHlo.after (hostOps1_2 (F := F)) W (Proc.devRef .tc b) = W (Proc.devRef .tc b) := by
  rcases hb with rfl | rfl | rfl | rfl <;> (simp only [hostOps1_2]; after_results_simp)

/-- Fourth stretch: the weighted rows summed into the fine rows, the injection rows then overwritten; `rd` is
    whatever reader produced the rows the stretch finds. -/
theorem fine4 (rd : FVec F S100000x64 .f32 → IVec S1600000 32 → FVec F S1600000x64 .f32) (ps : IVec S1600000 32)
    (hrd : W (Proc.devRef .tc main_v15) = rd (W (Proc.devRef .tc main_v14)) ps) :
    StableHlo.after (hostOps1_3 (F := F)) W (Proc.devRef .tc main_v28)
      = prolong rd (W (Proc.devRef .tc main_v14)) ps (W (Proc.devRef .tc main_arg6)) (W (Proc.devRef .tc main_arg7))
          (W (Proc.devRef .tc main_arg8)) := by
  simp only [hostOps1_3]
  after_results_simp
  rw [hrd]
  rfl

/-- The four stretches in order: the result buffer holds the fine-node result computed from the contents of the
    product array, of the source and destination rows, and of the arguments. -/
theorem tail_from :
    StableHlo.after (List.flatten (tailOps (F := F))) W (Proc.devRef .tc main_v28)
      = prolong takeRows
          (addf (sumToCoarse (W (Proc.devRef .tc main_v3))
              (mulf (perEdge (W (Proc.devRef .tc main_arg4))) (takeRows (W (Proc.devRef .tc main_v4)) (W (Proc.devRef .tc main_v1)))))
            (perRow (W (Proc.devRef .tc main_arg2))))
          (W (Proc.devRef .tc main_arg5)) (W (Proc.devRef .tc main_arg6)) (W (Proc.devRef .tc main_arg7)) (W (Proc.devRef .tc main_arg8)) := by
  simp only [tailOps, List.flatten_cons, List.flatten_nil, List.append_nil]
  rw [after_append, after_append, after_append]
  have h14 : StableHlo.after (hostOps1_2 (F := F)) (StableHlo.after hostOps1_1 (StableHlo.after hostOps1 W)) (Proc.devRef .tc main_v14)
      = addf (sumToCoarse (W (Proc.devRef .tc main_v3))
              (mulf (perEdge (W (Proc.devRef .tc main_arg4))) (takeRows (W (Proc.devRef .tc main_v4)) (W (Proc.devRef .tc main_v1)))))
            (perRow (W (Proc.devRef .tc main_arg2))) := by
    rw [keep3 _ (.inl rfl), coarse2, take1, keep1 W (.inl rfl), keep1 W (.inr (.inl rfl)), keep1 W (.inr (.inr (.inl rfl)))]
  have h5 : StableHlo.after (hostOps1_1 (F := F)) (StableHlo.after hostOps1 W) (Proc.devRef .tc main_arg5) = W (Proc.devRef .tc main_arg5) := by
    rw [keep2 _ (.inl rfl), keep1 W (.inr (.inr (.inr (.inl rfl))))]
  have h6 : StableHlo.after (hostOps1_2 (F := F)) (StableHlo.after hostOps1_1 (StableHlo.after hostOps1 W)) (Proc.devRef .tc main_arg6) = W (Proc.devRef .tc main_arg6) := by
    rw [keep3 _ (.inr (.inl rfl)), keep2 _ (.inr (.inl rfl)), keep1 W (.inr (.inr (.inr (.inr (.inl rfl)))))]
  have h7 : StableHlo.after (hostOps1_2 (F := F)) (StableHlo.after hostOps1_1 (StableHlo.after hostOps1 W)) (Proc.devRef .tc main_arg7) = W (Proc.devRef .tc main_arg7) := by
    rw [keep3 _ (.inr (.inr (.inl rfl))), keep2 _ (.inr (.inr (.inl rfl))), keep1 W (.inr (.inr (.inr (.inr (.inr (.inl rfl))))))]
  have h8 : StableHlo.after (hostOps1_2 (F := F)) (StableHlo.after hostOps1_1 (StableHlo.after hostOps1 W)) (Proc.devRef .tc main_arg8) = W (Proc.devRef .tc main_arg8) := by
    rw [keep3 _ (.inr (.inr (.inr rfl))), keep2 _ (.inr (.inr (.inr rfl))), keep1 W (.inr (.inr (.inr (.inr (.inr (.inr rfl))))))]
  rw [fine4 _ takeRows (W (Proc.devRef .tc main_arg5)) (by rw [take3, h5, keep3 _ (.inl rfl)]), h14, h6, h7, h8]

end Stretches

/-! ## What the tail finds -/

section Exit

variable (m : (ℓ : Loc nD τ sig) → Buf (Elt F) ℓ) (c : Dev nD)

/-- The buffers of core `c` as the region leaves them: its three arrays as the write-backs assembled them, every
    other buffer as the region was entered. -/
def exit : Valuation τ sig (Elt F) :=
  Pipeline.withArrays spec0 c (entry m c) fun w => (dats m 0 c).arrAt w cfg0.N

/-- The product array is the region's output array. -/
theorem exit_product : exit m c (Proc.devRef .tc main_v4) = (dats m 0 c).arrAt 2 cfg0.N :=
  Pipeline.withArrays_arr spec0 launch0.win.arr_inj c _ _ 2

/-- The source rows are row 0 of the edge list as launched. -/
theorem exit_src : exit m c (Proc.devRef .tc main_v1) = srcRows (m ((c : Thread nD τ).loc main_arg3)) := by
  refine (Pipeline.withArrays_of_ne spec0 c (entry m c) _ main_v1 (by decide)).trans ?_
  show StableHlo.after hostOps0 (fun b => m (c, b)) (Proc.devRef .tc main_v1) = _
  after_results
  rfl

/-- The destination rows are row 1 of the edge list as launched. -/
theorem exit_dst : exit m c (Proc.devRef .tc main_v3) = dstRows (m ((c : Thread nD τ).loc main_arg3)) := by
  refine (Pipeline.withArrays_of_ne spec0 c (entry m c) _ main_v3 (by decide)).trans ?_
  show StableHlo.after hostOps0 (fun b => m (c, b)) (Proc.devRef .tc main_v3) = _
  after_results
  rfl

/-- An argument that is no array of the region is found as launched. -/
theorem exit_arg (a : Ref sig .tc)
    (ha : a = main_arg2 ∨ a = main_arg4 ∨ a = main_arg5 ∨ a = main_arg6 ∨ a = main_arg7 ∨ a = main_arg8) :
    exit m c (Proc.devRef .tc a) = m ((c : Thread nD τ).loc a) := by
  refine (Pipeline.withArrays_of_ne spec0 c (entry m c) _ a ?_).trans (entry_arg m a ?_ c)
  · rcases ha with rfl | rfl | rfl | rfl | rfl | rfl <;> decide
  · rcases ha with rfl | rfl | rfl | rfl | rfl | rfl <;> simp

end Exit

/-- The result buffer `main_v28` after the tail is `afterRegion` of the region's final output array and the
    launch contents of the arguments. -/
theorem tail_result (m : (ℓ : Loc nD τ sig) → Buf (Elt F) ℓ) (c : Dev nD) :
    Pipeline.afterTail₀ cfgs (dats m) 0 (entry m) tailOps c main_v28
      = afterRegion (F := F) ((dats m 0 c).arrAt 2 cfg0.N) (m ((c : Thread nD τ).loc main_arg2)) (m ((c : Thread nD τ).loc main_arg3))
          (m ((c : Thread nD τ).loc main_arg4)) (m ((c : Thread nD τ).loc main_arg5)) (m ((c : Thread nD τ).loc main_arg6))
          (m ((c : Thread nD τ).loc main_arg7)) (m ((c : Thread nD τ).loc main_arg8)) := by
  unfold Pipeline.afterTail₀
  show StableHlo.after (List.flatten tailOps) (exit m c) (Proc.devRef .tc main_v28) = _
  rw [tail_from, exit_product, exit_src, exit_dst,
    exit_arg m c main_arg2 (.inl rfl), exit_arg m c main_arg4 (.inr (.inl rfl)), exit_arg m c main_arg5 (.inr (.inr (.inl rfl))),
    exit_arg m c main_arg6 (.inr (.inr (.inr (.inl rfl)))), exit_arg m c main_arg7 (.inr (.inr (.inr (.inr (.inl rfl))))),
    exit_arg m c main_arg8 (.inr (.inr (.inr (.inr (.inr rfl)))))]
  rfl

end Cert.KernelIdeal.Lin

end
-- ==== Proof.PreFacts.lean ====
/-
  What the precondition says, entry by entry: the rows, the factor and the edge weights hold real numbers,
  and every source row number of the edge list, and every pooling source row number, lies in
  -100000 … 99999 (the signed range in which a number names a row of a 100000-row array).
-/
import proofs.«429869_j43018392436869_2_alg».proof.Proof.Gen.Pre_finite_inputs
import Idealize.ShloMosaic.Lib.ValueIdx
import Idealize.ShloMosaic.Lib.Pipeline.Value
import Idealize.ShloMosaic.Lib.ReduceAll
import Idealize.ShloMosaic.Lib.StableHlo.Predicate
import Idealize.ShloMosaic.PureOps.Ideal.Laws

noncomputable section

namespace Cert.Pre_finite_inputs.Decode

open Idealize.ShloMosaic Cert.Pre_finite_inputs
open Cert.Pre_finite_inputs.Facts

/-- The empty-rank shape has one index. -/
instance : Subsingleton S_.Idx := ⟨fun a b => funext fun d => d.elim0⟩

/-- The bit pattern 0x7F800000 denotes +∞. -/
theorem inf_bits : Ideal.ofBits .f32 0x7F800000#32 = (⊤ : EReal) := by
  simp [Ideal.ofBits, Ideal.ieee]

/-- An extended real whose absolute value max a (-a) lies strictly below +∞ is a real number:
    at ⊥ and at ⊤ the absolute value is ⊤ itself. -/
theorem real_of_abs_lt_inf (a : EReal)
    (e : Ideal.cmp .olt (max a (-a)) (Ideal.ofBits .f32 0x7F800000#32) = 1#1) : ∃ r : ℝ, a = (r : EReal) := by
  rw [inf_bits] at e
  induction a using EReal.rec with
  | bot => simp [Ideal.cmp] at e
  | coe r => exact ⟨r, rfl⟩
  | top => simp [Ideal.cmp] at e

/-- A 32-bit word at which both signed comparisons (-100000 ≤ · and · < 100000) give 1 lies, read signed,
    in -100000 … 99999. -/
theorem range_of_mask (a : BitVec 32)
    (e : IntOp.andi (IntOp.cmpi .sge a 4294867296#32) (IntOp.cmpi .slt a 100000#32) = 1#1) :
    -100000 ≤ a.toInt ∧ a.toInt < 100000 := by
  rw [IntOp.andi_eq_one, IntOp.cmpi_sge, IntOp.cmpi_slt] at e
  have c1 : (4294867296#32 : BitVec 32).toInt = -100000 := by decide
  have c2 : (100000#32 : BitVec 32).toInt = 100000 := by decide
  rw [c1, c2] at e
  exact e

/-- From the printed precondition holding (all ones) at the ideal values. -/
theorem of_pre (x : FVec Ideal S100000x64 .f32) (w : FVec Ideal S64x64 .f32) (b : FVec Ideal S64 .f32) (ei : IVec S2x1600000 32)
    (ea : FVec Ideal S1600000 .f32) (ps pd : IVec S1600000 32) (pa : FVec Ideal S1600000 .f32) (pf : IVec S100000 32)
    (h : Cert.Pre_finite_inputs.fn (F := Ideal) x w b ei ea ps pd pa pf = fun _ => 1#1) :
    (∀ i, ∃ r : ℝ, x i = (r : EReal)) ∧ (∀ i, ∃ r : ℝ, w i = (r : EReal)) ∧ (∀ i, ∃ r : ℝ, ea i = (r : EReal))
    ∧ (∀ i : S1600000.Idx, -100000 ≤ ((shapeCast S1600000 (extractStridedSlice S1x1600000 ![0, 0] ei slices_S2x1600000_S1x1600000_0_0) shapeCasts_S1x1600000_S1600000) i).toInt
        ∧ ((shapeCast S1600000 (extractStridedSlice S1x1600000 ![0, 0] ei slices_S2x1600000_S1x1600000_0_0) shapeCasts_S1x1600000_S1600000) i).toInt < 100000)
    ∧ (∀ i : S1600000.Idx, -100000 ≤ (ps i).toInt ∧ (ps i).toInt < 100000) := by
  have h0 := congrFun h ValueIdx.ix0
  dsimp only [fn, fn_part1, fn_part2] at h0
  simp only [andi, IntOp.andi_eq_one] at h0
  obtain ⟨⟨⟨⟨⟨⟨hx, hw⟩, hb⟩, hea⟩, hpa⟩, hei⟩, hps⟩ := h0
  refine ⟨fun i => ?_, fun i => ?_, fun i => ?_, fun i => ?_, fun i => ?_⟩
  · exact real_of_abs_lt_inf _ (Host.reduce_andi_all _ _ _ _ _ hx i)
  · exact real_of_abs_lt_inf _ (Host.reduce_andi_all _ _ _ _ _ hw i)
  · exact real_of_abs_lt_inf _ (Host.reduce_andi_all _ _ _ _ _ hea i)
  · exact range_of_mask _ (Host.reduce_andi_all _ _ _ _ _ hei i)
  · exact range_of_mask _ (Host.reduce_andi_all _ _ _ _ _ hps i)

end Cert.Pre_finite_inputs.Decode

end
-- ==== Proof.LibRowMask.lean ====
/-
  Two general facts about a range mask over signed 32-bit row numbers.

  * numpy reads a negative row number `v` of an axis of 100000 rows as `v + 100000`. If `v`, read signed, lies in
    -100000 … 99999, the number so wrapped lies in 0 … 99999: it passes both signed comparisons of the range test.
  * a reduction by `and` of one-bit words that are all 1, from an initial 1, is 1.
-/
import Idealize.ShloMosaic.PureOps
import Idealize.ShloMosaic.Lib.ReduceAll

namespace Idealize.ShloMosaic.ValueIdx

open Idealize.ShloMosaic

/-- A row number in -100000 … 99999, wrapped as numpy wraps it, passes `0 ≤ ·` and `· ≤ 99999`. -/
theorem wrap_in_range (v : BitVec 32) (h1 : -100000 ≤ v.toInt) (h2 : v.toInt < 100000) :
    IntOp.cmpi .sge (Scalar.select (IntOp.cmpi .slt v 0#32) (IntOp.addi v 100000#32) v) 0#32 = 1#1
    ∧ IntOp.cmpi .sle (Scalar.select (IntOp.cmpi .slt v 0#32) (IntOp.addi v 100000#32) v) 99999#32 = 1#1 := by
  unfold IntOp.cmpi Scalar.select IntOp.addi
  simp only [BitVec.slt, BitVec.sle]
  have h0 : (0#32 : BitVec 32).toInt = 0 := by decide
  have h9 : (99999#32 : BitVec 32).toInt = 99999 := by decide
  simp only [h0, h9]
  by_cases hneg : v.toInt < 0
  · -- a negative number: the sum does not leave the signed range, so it is the integer sum
    have hadd : (v + 100000#32).toInt = v.toInt + 100000 := by
      rw [BitVec.toInt_add]
      have : (100000#32 : BitVec 32).toInt = 100000 := by decide
      rw [this]
      apply Int.bmod_eq_of_le <;> omega
    have hsel : (if BitVec.ofBool (decide (v.toInt < 0)) = 1 then v + 100000#32 else v) = v + 100000#32 := by
      rw [if_pos]; simp [hneg]
    rw [hsel, hadd]
    refine ⟨?_, ?_⟩
    · rw [(by simpa using (by omega : 0 ≤ v.toInt + 100000) : decide (0 ≤ v.toInt + 100000) = true)]; rfl
    · rw [(by simpa using (by omega : v.toInt + 100000 ≤ 99999) : decide (v.toInt + 100000 ≤ 99999) = true)]; rfl
  · have hsel : (if BitVec.ofBool (decide (v.toInt < 0)) = 1 then v + 100000#32 else v) = v := by
      rw [if_neg]; simp [hneg]
    rw [hsel]
    refine ⟨?_, ?_⟩
    · rw [(by simpa using (by omega : 0 ≤ v.toInt) : decide (0 ≤ v.toInt) = true)]; rfl
    · rw [(by simpa using (by omega : v.toInt ≤ 99999) : decide (v.toInt ≤ 99999) = true)]; rfl

/-- An `and`-reduction of all-one bits from an all-one initial value is one, at every result index. -/
theorem reduce_andi_of_all_one {s t u : Shape} {axes : List (Fin s.rank)} (x : s.Idx → BitVec 1) (init : u.Idx → BitVec 1)
    (h : s.ReducesTo axes t) (hu : 0 < u.numel) (hx : ∀ i, x i = 1#1) (hinit : ∀ k, init k = 1#1) (j : t.Idx) :
    Host.reduce IntOp.andi x init h hu j = 1#1 := by
  rw [Host.reduce_eq_foldl, hinit]
  generalize (((List.finRange s.numel).map s.rowMajor.symm).filter fun i => h.drop i = j) = l
  have : ∀ (l : List s.Idx) (acc : BitVec 1), acc = 1#1 → l.foldl (fun r i => IntOp.andi r (x i)) acc = 1#1 := by
    intro l
    induction l with
    | nil => intro acc h; exact h
    | cons a l ih => intro acc hacc; rw [List.foldl_cons]; apply ih; rw [hacc, hx]; decide
  exact this l _ rfl

end Idealize.ShloMosaic.ValueIdx
-- ==== Proof.TakeGather.lean ====
/-
  Where every row number of the list lies in -100000 … 99999, `jnp.take` in its default mode reads the same rows
  as plain indexing: the wrapped number passes the range test at every list position, so the mask is all ones and
  the select keeps the gathered row everywhere; the NaN fill is never taken.
-/
import proofs.«429869_j43018392436869_2_alg».proof.Proof.LinSpec
import proofs.«429869_j43018392436869_2_alg».proof.Proof.LibRowMask
import Idealize.ShloMosaic.Lib.ValueIdx

noncomputable section

namespace Cert.KernelIdeal.Lin

open Idealize.ShloMosaic Cert.KernelIdeal
open Cert.KernelIdeal.Facts₀ Cert.KernelIdeal.Facts

variable {F : FTy → Type} [FloatOps F]

/-- The range test holds at every list position. -/
theorem inRange_all (i : IVec S1600000 32) (hi : ∀ j : S1600000.Idx, -100000 ≤ (i j).toInt ∧ (i j).toInt < 100000)
    (e : S1600000.Idx) : inRange (asColumn (wrapRows 100000#32 i)) e = 1#1 := by
  unfold inRange
  refine ValueIdx.reduce_andi_of_all_one _ _ _ _ (fun idx => ?_) (fun _ => rfl) e
  show IntOp.andi (IntOp.cmpi .sge (asColumn (wrapRows 100000#32 i) idx) _) (IntOp.cmpi .sle (asColumn (wrapRows 100000#32 i) idx) _) = 1#1
  rw [IntOp.andi_eq_one]
  exact ValueIdx.wrap_in_range _ (hi _).1 (hi _).2

/-- `jnp.take` is plain indexing on row numbers in range. -/
theorem takeRows_eq_gatherRows (tbl : FVec F S100000x64 .f32) (i : IVec S1600000 32)
    (hi : ∀ j : S1600000.Idx, -100000 ≤ (i j).toInt ∧ (i j).toInt < 100000) : takeRows tbl i = gatherRows tbl i := by
  funext y
  unfold takeRows gatherRows
  rw [ValueIdx.select_apply]
  have hmask : broadcastInDim S1600000x64 ![0] bcast_S1600000_S1600000x64_0 (inRange (asColumn (wrapRows 100000#32 i))) y = 1#1 :=
    inRange_all i hi _
  rw [hmask]
  rfl

end Cert.KernelIdeal.Lin

end
-- ==== Proof.LibRows.lean ====
/-
  General lemmas for ROW indexing by an integer list, as `x[idx]` and `zeros.at[idx].add(u)` lower for a
  rank-2 array and a rank-1 list of row numbers (held as an `[E, 1]` column):

  * a row gather — operand `[N, C]`, start indices `[E, 1]`, result `[E, C]`, the row axis collapsed —
    read at `(e, c)` is the operand at row `idx[e, 0]` (read signed, clamped into `[0, N − 1]`), column `c`;
  * at the ideal values a row scatter-add — operand `[N, C]`, scatter indices `[E, 1]`, updates `[E, C]` —
    read at `(n, c)` is the operand's entry plus the sum, over the list positions `e` whose row number
    `idx[e, 0]` (read signed, not clamped) is `n`, of the updates' entries `(e, c)`.
-/
import Idealize.ShloMosaic.Lib.ValueIdx
import Idealize.ShloMosaic.Lib.Pipeline.Value
import Idealize.ShloMosaic.PureOps.Ideal.Laws

noncomputable section

open scoped BigOperators

namespace Idealize.ShloMosaic.ValueIdx

open Idealize.ShloMosaic

/-- The dimension numbers of a row gather: operand `[N, C]`, start indices `[E, 1]`, result `[E, C]`. -/
abbrev rowGatherDims (N E C : ℕ)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, c)`: the operand at row `idx[e, 0]`, read signed and clamped into
    `[0, N − 1]`, column `c`. -/
theorem rowGather_apply {α : Type} {N E C w : ℕ} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGatherDims N E C wf) x idx (ix2 e c)
      = x (ix2 (⟨min (idx (ix2 e (0 : Fin 1))).toInt.toNat (N - 1), by omega⟩ : Fin N) c) := by
  unfold Host.gather
  congr 1
  funext a
  refine Fin.ext ?_
  match a with
  | ⟨0, _⟩ =>
    show (rowGatherDims N E C wf).start (ix2 e c) idx 0 + (rowGatherDims N E C wf).batchCoord (ix2 e c) 0
      + (rowGatherDims N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e c) ⟨List.idxOf (0 : Fin 2) (rowGatherDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N E C wf).start (ix2 e c) idx 1 + (rowGatherDims N E C wf).batchCoord (ix2 e c) 1
      + (rowGatherDims N E C wf).offCoord (ix2 e c) 1 = c.val
    rw [GatherDims.batchCoord_eq_zero _ _ _ List.not_mem_nil]
    have hs : (rowGatherDims N E C wf).start (ix2 e c) idx 1 = 0 := by
      unfold GatherDims.start
      rw [dif_neg (show (1 : Fin 2) ∉ (rowGatherDims N E C wf).startIndexMap by simp)]
    rw [hs]
    have hk : (rowGatherDims N E C wf).sKept = [(1 : Fin 2)] := rfl
    unfold GatherDims.offCoord
    rw [dif_pos (show (1 : Fin 2) ∈ (rowGatherDims N E C wf).sKept from by rw [hk]; exact List.mem_singleton.mpr rfl)]
    have hi : List.idxOf (1 : Fin 2) (rowGatherDims N E C wf).sKept = 0 := by rw [hk]; exact List.idxOf_cons_self
    simp only [hi, Nat.zero_add]
    rfl

/-- The dimension numbers of a row scatter: operand `[N, C]`, scatter indices `[E, 1]`, updates `[E, C]`. -/
abbrev rowScatterDims (N E C : ℕ)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- Where the update at `(e, c')` lands: at `(n, c)` exactly when the row number at `e` is `n` and `c' = c`. -/
private theorem rowScatter_resultIdx {N E C w : ℕ}
    (wf : ScatterDims.WF ⟨2, ![N, C]⟩ ⟨2, ![E, 1]⟩ ⟨2, ![E, C]⟩ [1] [0] [0] 1)
    (idx : IVec ⟨2, ![E, 1]⟩ w) (e : Fin E) (c' : Fin C) (n : Fin N) (c : Fin C) :
    (rowScatterDims N E C wf).resultIdx? (ix2 e c') idx = some (ix2 n c)
      ↔ (idx (ix2 e (0 : Fin 1))).toInt = (n.val : ℤ) ∧ c' = c := by
  have hs0 : (rowScatterDims N E C wf).start (ix2 e c') idx (0 : Fin 2) = (idx (ix2 e (0 : Fin 1))).toInt := by
    unfold ScatterDims.start
    rw [dif_pos (show (0 : Fin 2) ∈ (rowScatterDims N E C wf).scatterDimsToOperandDims from List.mem_singleton.mpr rfl)]
    have hsi : (rowScatterDims N E C wf).siIdx (ix2 e c') ⟨List.idxOf (0 : Fin 2) (rowScatterDims N E C wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hs1 : (rowScatterDims N E C wf).start (ix2 e c') idx (1 : Fin 2) = 0 := by
    unfold ScatterDims.start
    rw [dif_neg (show (1 : Fin 2) ∉ (rowScatterDims N E C wf).scatterDimsToOperandDims by simp)]
  have hk : (rowScatterDims N E C wf).sKept = [(1 : Fin 2)] := rfl
  have hw0 : (rowScatterDims N E C wf).window (ix2 e c') (0 : Fin 2) = 0 := by
    unfold ScatterDims.window
    rw [dif_neg (show (0 : Fin 2) ∉ (rowScatterDims N E C wf).sKept by rw [hk]; simp)]
  have hw1 : (rowScatterDims N E C wf).window (ix2 e c') (1 : Fin 2) = c'.val := by
    unfold ScatterDims.window
    rw [dif_pos (show (1 : Fin 2) ∈ (rowScatterDims N E C wf).sKept from by rw [hk]; exact List.mem_singleton.mpr rfl)]
    have hi : List.idxOf (1 : Fin 2) (rowScatterDims N E C wf).sKept = 0 := by rw [hk]; exact List.idxOf_cons_self
    simp only [hi]
    rfl
  constructor
  · intro h
    unfold ScatterDims.resultIdx? at h
    split at h
    · rename_i hb
      have h' := Option.some.inj h
      have h0 : ((rowScatterDims N E C wf).start (ix2 e c') idx (0 : Fin 2) + ((rowScatterDims N E C wf).window (ix2 e c') (0 : Fin 2) : ℤ)).toNat = n.val :=
        congrArg (fun f : (⟨2, ![N, C]⟩ : Shape).Idx => (f 0).val) h'
      have h1 : ((rowScatterDims N E C wf).start (ix2 e c') idx (1 : Fin 2) + ((rowScatterDims N E C wf).window (ix2 e c') (1 : Fin 2) : ℤ)).toNat = c.val :=
        congrArg (fun f : (⟨2, ![N, C]⟩ : Shape).Idx => (f 1).val) h'
      have hb0 := (hb 0).1
      have hb1 := (hb 1).1
      rw [hs0, hw0] at h0 hb0
      rw [hs1, hw1] at h1 hb1
      exact ⟨by omega, Fin.ext (by omega)⟩
    · exact absurd h (by simp)
  · rintro ⟨hrow, rfl⟩
    unfold ScatterDims.resultIdx?
    have hb : ∀ a : Fin 2, 0 ≤ (rowScatterDims N E C wf).start (ix2 e c') idx a + ((rowScatterDims N E C wf).window (ix2 e c') a : ℤ)
        ∧ (rowScatterDims N E C wf).start (ix2 e c') idx a + ((rowScatterDims N E C wf).window (ix2 e c') a : ℤ) < ((⟨2, ![N, C]⟩ : Shape).size a : ℤ) := by
      intro a
      match a with
      | ⟨0, _⟩ =>
        show 0 ≤ (rowScatterDims N E C wf).start (ix2 e c') idx (0 : Fin 2) + ((rowScatterDims N E C wf).window (ix2 e c') (0 : Fin 2) : ℤ)
          ∧ (rowScatterDims N E C wf).start (ix2 e c') idx (0 : Fin 2) + ((rowScatterDims N E C wf).window (ix2 e c') (0 : Fin 2) : ℤ) < (N : ℤ)
        rw [hs0, hw0, hrow]
        have := n.isLt
        omega
      | ⟨1, _⟩ =>
        show 0 ≤ (rowScatterDims N E C wf).start (ix2 e c') idx (1 : Fin 2) + ((rowScatterDims N E C wf).window (ix2 e c') (1 : Fin 2) : ℤ)
          ∧ (rowScatterDims N E C wf).start (ix2 e c') idx (1 : Fin 2) + ((rowScatterDims N E C wf).window (ix2 e c') (1 : Fin 2) : ℤ) < (C : ℤ)
        rw [hs1, hw1]
        have := c'.isLt
        omega
    rw [dif_pos hb]
    congr 1
    funext a
    refine Fin.ext ?_
    match a with
    | ⟨0, _⟩ =>
      show ((rowScatterDims N E C wf).start (ix2 e c') idx (0 : Fin 2) + ((rowScatterDims N E C wf).window (ix2 e c') (0 : Fin 2) : ℤ)).toNat = n.val
      rw [hs0, hw0, hrow]
      omega
    | ⟨1, _⟩ =>
      show ((rowScatterDims N E C wf).start (ix2 e c') idx (1 : Fin 2) + ((rowScatterDims N E C wf).window (ix2 e c') (1 : Fin 2) : ℤ)).toNat = c'.val
      rw [hs1, hw1]
      omega

/-- THE ROW SCATTER-ADD READ AT `(n, c)`, at the ideal values: the operand's entry plus the sum of the
    updates' entries `(e, c)` over the positions `e` whose row number is `n`. -/
theorem rowScatterAdd_apply {N E C w : ℕ}
    (wf : ScatterDims.WF ⟨2, ![N, C]⟩ ⟨2, ![E, 1]⟩ ⟨2, ![E, C]⟩ [1] [0] [0] 1)
    (x : FVec Ideal ⟨2, ![N, C]⟩ .f32) (idx : IVec ⟨2, ![E, 1]⟩ w) (upd : FVec Ideal ⟨2, ![E, C]⟩ .f32)
    (n : Fin N) (c : Fin C) :
    Host.scatterAdd (F := Ideal) (rowScatterDims N E C wf) x idx upd (ix2 n c)
      = x (ix2 n c) + ∑ e ∈ Finset.univ.filter (fun e : Fin E => (idx (ix2 e (0 : Fin 1))).toInt = (n.val : ℤ)),
          upd (ix2 e c) := by
  show Ideal.hostScatterAdd (rowScatterDims N E C wf) x idx upd (ix2 n c) = _
  unfold Ideal.hostScatterAdd
  congr 1
  rw [Finset.sum_filter, sum_idx2, Finset.sum_filter]
  refine Finset.sum_congr rfl fun e _ => ?_
  simp only [rowScatter_resultIdx]
  by_cases hrow : (idx (ix2 e (0 : Fin 1))).toInt = (n.val : ℤ)
  · simp only [hrow, true_and, if_true]
    rw [Finset.sum_ite_eq' Finset.univ c (fun c' => upd (ix2 e c'))]
    simp only [Finset.mem_univ, if_true]
  · simp only [hrow, false_and, if_false, Finset.sum_const_zero]

end Idealize.ShloMosaic.ValueIdx

end
-- ==== Proof.LibRowsLinear.lean ====
/-
  A general lemma about ROW indexing and a matrix product, at the ideal values.

  Let `x` be an `[N, C]` array and `W` a `[C, C]` matrix, both holding real numbers, and `xw = x · W`.
  Take rows of a table by a list of row numbers `src`, weight position `e`'s row by a real `a e` (the same
  weight along the row), and add the weighted rows into the rows `dst` names of an all-zero array. Then doing
  this to the table `xw` gives, entry by entry, the matrix product with `W` of doing it to the table `x`:

      Σ_{e : dst e = n} a e · (Σ_k x[src e, k] · W[k, j])  =  Σ_k (Σ_{e : dst e = n} a e · x[src e, k]) · W[k, j],

  which is distributivity and an exchange of two finite sums over the reals. On the extended reals the step
  needs every entry of `x`, `W` and the weights to be a real number (at an infinity distributivity fails).
-/
import proofs.«429869_j43018392436869_2_alg».proof.Proof.LibRows

noncomputable section

open scoped BigOperators

namespace Idealize.ShloMosaic.ValueIdx

open Idealize.ShloMosaic

/-- The coercion of a finite real sum is the sum of the coercions. -/
theorem coe_finset_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- THE LINEARITY STEP, entry `(n, j)`: the scatter-add of the weighted rows gathered from `xw = x · W` is row
    `n` of the scatter-add of the weighted rows gathered from `x`, times column `j` of `W`. -/
theorem rowScatterAdd_gather_mul_right {N E C w : ℕ} (hN : 0 < N)
    (gwf : GatherDims.WF ⟨2, ![N, C]⟩ ⟨2, ![E, 1]⟩ ⟨2, ![E, C]⟩ [1] [0] [] [0] [] 1 ![1, C])
    (swf : ScatterDims.WF ⟨2, ![N, C]⟩ ⟨2, ![E, 1]⟩ ⟨2, ![E, C]⟩ [1] [0] [0] 1)
    (x xw z : FVec Ideal ⟨2, ![N, C]⟩ .f32) (W : FVec Ideal ⟨2, ![C, C]⟩ .f32)
    (hxw : ∀ (r : Fin N) (j : Fin C), xw (ix2 r j) = ∑ k : Fin C, x (ix2 r k) * W (ix2 k j))
    (hx : ∀ i, ∃ r : ℝ, x i = (r : EReal)) (hW : ∀ i, ∃ r : ℝ, W i = (r : EReal))
    (a : FVec Ideal ⟨2, ![E, C]⟩ .f32) (a₀ : Fin E → ℝ) (ha : ∀ (e : Fin E) (j : Fin C), a (ix2 e j) = (a₀ e : EReal))
    (hz : ∀ i, z i = 0) (src dst : IVec ⟨2, ![E, 1]⟩ w) (n : Fin N) (j : Fin C) :
    Host.scatterAdd (F := Ideal) (rowScatterDims N E C swf) z dst (mulf a (Host.gather (rowGatherDims N E C gwf) xw src)) (ix2 n j)
      = ∑ k : Fin C, Host.scatterAdd (F := Ideal) (rowScatterDims N E C swf) z dst
          (mulf a (Host.gather (rowGatherDims N E C gwf) x src)) (ix2 n k) * W (ix2 k j) := by
  classical
  choose x' hx' using hx
  choose W' hW' using hW
  rw [rowScatterAdd_apply]
  simp only [rowScatterAdd_apply, hz, zero_add]
  -- the row the gather reads at list position `e`
  set row : Fin E → Fin N := fun e => ⟨min (src (ix2 e (0 : Fin 1))).toInt.toNat (N - 1), by omega⟩ with hrow
  have hmul : ∀ (t : FVec Ideal ⟨2, ![N, C]⟩ .f32) (e : Fin E) (k : Fin C),
      mulf a (Host.gather (rowGatherDims N E C gwf) t src) (ix2 e k) = (a₀ e : EReal) * t (ix2 (row e) k) := by
    intro t e k
    show FloatOps.mulf (a (ix2 e k)) (Host.gather (rowGatherDims N E C gwf) t src (ix2 e k)) = _
    rw [rowGather_apply hN, ha, Ideal.mulf_def]
  simp only [hmul, hxw, hx', hW']
  -- everything is now the coercion of a real expression
  have hL : ∀ e : Fin E, (a₀ e : EReal) * ∑ k : Fin C, ((x' (ix2 (row e) k) : ℝ) : EReal) * ((W' (ix2 k j) : ℝ) : EReal)
      = ((a₀ e * ∑ k : Fin C, x' (ix2 (row e) k) * W' (ix2 k j) : ℝ) : EReal) := by
    intro e
    rw [EReal.coe_mul, coe_finset_sum]
    simp only [EReal.coe_mul]
  have hR : ∀ k : Fin C, (∑ e ∈ Finset.univ.filter (fun e : Fin E => (dst (ix2 e (0 : Fin 1))).toInt = (n.val : ℤ)),
        (a₀ e : EReal) * ((x' (ix2 (row e) k) : ℝ) : EReal)) * ((W' (ix2 k j) : ℝ) : EReal)
      = (((∑ e ∈ Finset.univ.filter (fun e : Fin E => (dst (ix2 e (0 : Fin 1))).toInt = (n.val : ℤ)),
        a₀ e * x' (ix2 (row e) k)) * W' (ix2 k j) : ℝ) : EReal) := by
    intro k
    rw [EReal.coe_mul, coe_finset_sum]
    simp only [EReal.coe_mul]
  simp only [hL, hR]
  rw [← coe_finset_sum, ← coe_finset_sum]
  congr 1
  simp only [Finset.mul_sum, Finset.sum_mul]
  rw [Finset.sum_comm]
  refine Finset.sum_congr rfl fun k _ => Finset.sum_congr rfl fun e _ => ?_
  ring

end Idealize.ShloMosaic.ValueIdx

end
-- ==== Proof.Bridge.lean ====
/-
  The two idealized programs compute one function of the arguments.

  Both end with the same prolongation of the coarse values `h` (weighted rows of `h` summed into the fine rows,
  then the injection rows overwritten by `h`); they differ in two places.
  * The kernel reads rows with `jnp.take`, the reference by plain indexing. These agree wherever every row number
    lies in -100000 … 99999, which the precondition says of both lists of source rows.
  * The kernel multiplies the rows by the factor first and aggregates after, `h = segment_sum(ea · (x·W)[src], dst) + b`;
    the reference aggregates first, `h = segment_sum(ea · x[src], dst) · W + b`. These are equal because the
    matrix product distributes over the finite sums: every entry involved is a real number.
-/
import proofs.«429869_j43018392436869_2_alg».proof.Proof.TakeGather
import proofs.«429869_j43018392436869_2_alg».proof.Proof.LibRowsLinear
import proofs.«429869_j43018392436869_2_alg».proof.Proof.Gen.ReferenceIdeal.Read
import Idealize.ShloMosaic.Lib.Pipeline.Value
import Idealize.ShloMosaic.PureOps.Ideal.Laws

noncomputable section

open scoped BigOperators

namespace Cert.Proof.Bridge

open Idealize.ShloMosaic Idealize.ShloMosaic.ValueIdx
open Cert.KernelIdeal Cert.KernelIdeal.Lin
open Cert.KernelIdeal.Facts₀ Cert.KernelIdeal.Facts

/-- The reference's matrix product at an entry: row `n` of the left operand times column `j` of the right. -/
theorem refDot_apply (l : FVec Ideal S100000x64 .f32) (r : FVec Ideal S64x64 .f32) (n : Fin 100000) (j : Fin 64) :
    Host.dotGeneral Cert.ReferenceIdeal.dot_S100000x64_S64x64_S100000x64_1_0_0_1_n_n none l r (ix2 n j) = ∑ k : Fin 64, l (ix2 n k) * r (ix2 k j) := by
  simp only [Host.dotGeneral]
  rw [Ideal.dotGeneral_apply, ← Equiv.sum_comp (ValueIdx.contrEquiv1 Cert.ReferenceIdeal.dot_S100000x64_S64x64_S100000x64_1_0_0_1_n_n 64 rfl rfl).symm]
  refine Finset.sum_congr rfl fun k _ => ?_
  have hk := ValueIdx.contrEquiv1_symm_val Cert.ReferenceIdeal.dot_S100000x64_S64x64_S100000x64_1_0_0_1_n_n 64 rfl rfl k
  have el : (Cert.ReferenceIdeal.dot_S100000x64_S64x64_S100000x64_1_0_0_1_n_n).lhsIdx (ix2 n j) ((ValueIdx.contrEquiv1 Cert.ReferenceIdeal.dot_S100000x64_S64x64_S100000x64_1_0_0_1_n_n 64 rfl rfl).symm k) = ix2 n k := funext fun a => Fin.ext (by
    match a with
    | ⟨0, _⟩ => exact Cert.ReferenceIdeal.Read.lhs_main_v17_0 _ _
    | ⟨1, _⟩ => exact (Cert.ReferenceIdeal.Read.lhs_main_v17_1 _ _).trans hk)
  have er : (Cert.ReferenceIdeal.dot_S100000x64_S64x64_S100000x64_1_0_0_1_n_n).rhsIdx (ix2 n j) ((ValueIdx.contrEquiv1 Cert.ReferenceIdeal.dot_S100000x64_S64x64_S100000x64_1_0_0_1_n_n 64 rfl rfl).symm k) = ix2 k j := funext fun a => Fin.ext (by
    match a with
    | ⟨0, _⟩ => exact (Cert.ReferenceIdeal.Read.rhs_main_v17_0 _ _).trans hk
    | ⟨1, _⟩ => exact Cert.ReferenceIdeal.Read.rhs_main_v17_1 _ _)
  rw [el, er]

/-- The per-edge weight array holds position `e`'s weight all along row `e`. -/
theorem perEdge_apply {F : FTy → Type} [FloatOps F] (a : FVec F S1600000 .f32) (e : Fin 1600000) (j : Fin 64) :
    perEdge a (ix2 e j) = a (ix1 e) := by
  unfold perEdge
  rw [broadcastInDim_apply _ _ _ (ix2 e j) (ix2 e (0 : Fin 1)) (fun a => by
      match a with
      | ⟨0, _⟩ => show e.val = if (1600000 : Nat) = 1 then 0 else e.val; rw [if_neg (by decide)]
      | ⟨1, _⟩ => show (0 : Nat) = if (1 : Nat) = 1 then 0 else j.val; rw [if_pos rfl]),
    broadcastInDim_apply _ _ _ (ix2 e (0 : Fin 1)) (ix1 e) (fun a => by
      match a with
      | ⟨0, _⟩ => show e.val = if (1600000 : Nat) = 1 then 0 else e.val; rw [if_neg (by decide)])]

/-- THE COARSE VALUES AGREE: aggregating the rows of `x · W` is aggregating the rows of `x` and multiplying by `W`. -/
theorem sumToCoarse_product (x xw : FVec Ideal S100000x64 .f32) (W : FVec Ideal S64x64 .f32) (ea : FVec Ideal S1600000 .f32)
    (src dst : IVec S1600000 32)
    (hxw : ∀ (r : Fin 100000) (j : Fin 64), xw (ix2 r j) = ∑ k : Fin 64, x (ix2 r k) * W (ix2 k j))
    (hx : ∀ i, ∃ r : ℝ, x i = (r : EReal)) (hW : ∀ i, ∃ r : ℝ, W i = (r : EReal)) (hea : ∀ i, ∃ r : ℝ, ea i = (r : EReal)) :
    sumToCoarse dst (mulf (perEdge ea) (gatherRows xw src))
      = Host.dotGeneral Cert.ReferenceIdeal.dot_S100000x64_S64x64_S100000x64_1_0_0_1_n_n none (sumToCoarse dst (mulf (perEdge ea) (gatherRows x src))) W := by
  funext y
  obtain ⟨n, j, rfl⟩ : ∃ (n : Fin 100000) (j : Fin 64), y = ix2 n j := ⟨y 0, y 1, eq_ix2 y⟩
  rw [refDot_apply]
  choose ea' hea' using hea
  exact rowScatterAdd_gather_mul_right (N := 100000) (E := 1600000) (C := 64) (by decide)
    gather_S100000x64_S1600000x1_S1600000x64_1_0_n_n_0_1_164_wf scatter_S100000x64_S1600000x1_S1600000x64_1_0_0_1_wf
    x xw (broadcastInDim S100000x64 ![] bcast_S_S100000x64 (constant S_ .f32 0x00000000#32)) W hxw hx hW
    (perEdge ea) (fun e => ea' (ix1 e)) (fun e j => by rw [perEdge_apply, hea'])
    (fun i => Ideal.ofBits_zero_f32) (asColumn (wrapRows 100000#32 src)) (asColumn dst) n j

/-- The reference's result as a function of the arguments: the same prolongation, read by plain indexing, of the
    coarse values aggregated first and multiplied by the factor after. -/
def referenceFn (x : FVec Ideal S100000x64 .f32) (W : FVec Ideal S64x64 .f32) (b : FVec Ideal S64 .f32) (ei : IVec S2x1600000 32)
    (ea : FVec Ideal S1600000 .f32) (ps pd : IVec S1600000 32) (pa : FVec Ideal S1600000 .f32) (pf : IVec S100000 32) : FVec Ideal S400000x64 .f32 :=
  prolong gatherRows
    (addf (Host.dotGeneral Cert.ReferenceIdeal.dot_S100000x64_S64x64_S100000x64_1_0_0_1_n_n none (sumToCoarse (dstRows ei) (mulf (perEdge ea) (gatherRows x (srcRows ei)))) W) (perRow b))
    ps pd pa pf

/-- THE BRIDGE: from the product array `xw = x · W`, under the precondition's facts, the kernel's host tail computes
    the reference's function. -/
theorem afterRegion_eq_referenceFn (x xw : FVec Ideal S100000x64 .f32) (W : FVec Ideal S64x64 .f32) (b : FVec Ideal S64 .f32)
    (ei : IVec S2x1600000 32) (ea : FVec Ideal S1600000 .f32) (ps pd : IVec S1600000 32) (pa : FVec Ideal S1600000 .f32) (pf : IVec S100000 32)
    (hxw : ∀ (r : Fin 100000) (j : Fin 64), xw (ix2 r j) = ∑ k : Fin 64, x (ix2 r k) * W (ix2 k j))
    (hx : ∀ i, ∃ r : ℝ, x i = (r : EReal)) (hW : ∀ i, ∃ r : ℝ, W i = (r : EReal)) (hea : ∀ i, ∃ r : ℝ, ea i = (r : EReal))
    (hsrc : ∀ i : S1600000.Idx, -100000 ≤ (srcRows ei i).toInt ∧ (srcRows ei i).toInt < 100000)
    (hps : ∀ i : S1600000.Idx, -100000 ≤ (ps i).toInt ∧ (ps i).toInt < 100000) :
    afterRegion xw b ei ea ps pd pa pf = referenceFn x W b ei ea ps pd pa pf := by
  unfold afterRegion referenceFn coarse
  rw [takeRows_eq_gatherRows xw (srcRows ei) hsrc, sumToCoarse_product x xw W ea (srcRows ei) (dstRows ei) hxw hx hW hea]
  unfold prolong
  rw [takeRows_eq_gatherRows _ ps hps]

end Cert.Proof.Bridge

end
-- ==== Proof.lean ====
/-
  The certificate's claims.

  The kernel program multiplies the 100000 x 64 row array by the 64 x 64 factor in one pallas region (five row
  blocks), and then, on the host: gathers rows of the product at the edges' source rows, weights them, sums them
  into the destination rows and adds the bias (the coarse values h); gathers rows of h at the pooling sources,
  weights them, sums them into the 400000 fine rows, and overwrites the injection rows with h. The reference does
  the same with the factor applied AFTER the first aggregation and with plain indexing where the kernel uses
  `jnp.take`.

  * The three frames: the region's body only loads its two input blocks and stores their product over its output
    block; no host operation writes an argument; so every execution terminates, faultless, the arguments unchanged
    (the reference: its generated run).
  * The idealization rewrote nothing: nothing to preserve.
  * The results agree at the ideal values. The region's output array is the matrix product x · W entry by entry
    (a bf16 rounding is the identity there, the matrix unit's product into a zero accumulator the plain sum). On
    row numbers in -100000 … 99999 — the added precondition on the two lists of SOURCE rows — `jnp.take` reads the
    rows plain indexing reads. And Σ_e a_e · (x·W)[s_e] = (Σ_e a_e · x[s_e]) · W by distributivity over finite sums
    of real numbers, the precondition making x, W and the weights real. Everything after h is the same function on
    both sides.
-/
import proofs.«429869_j43018392436869_2_alg».proof.Defs
import proofs.«429869_j43018392436869_2_alg».proof.Proof.Gen.Kernel
import proofs.«429869_j43018392436869_2_alg».proof.Proof.Gen.KernelIdeal
import proofs.«429869_j43018392436869_2_alg».proof.Proof.Gen.ReferenceIdeal
import proofs.«429869_j43018392436869_2_alg».proof.Proof.Gen.Pre_finite_inputs
import proofs.«429869_j43018392436869_2_alg».proof.Proof.Gen.ReferenceIdeal.Run
import proofs.«429869_j43018392436869_2_alg».proof.Proof.Gen.ReferenceIdeal.Read
import proofs.«429869_j43018392436869_2_alg».proof.Proof.LinArgs
import proofs.«429869_j43018392436869_2_alg».proof.Proof.LinArgsBits
import proofs.«429869_j43018392436869_2_alg».proof.Proof.LinValue
import proofs.«429869_j43018392436869_2_alg».proof.Proof.LinTail
import proofs.«429869_j43018392436869_2_alg».proof.Proof.PreFacts
import proofs.«429869_j43018392436869_2_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Lin.frame m ρ

theorem frame_kernelIdeal : Cert.frame_KernelIdeal := fun m ρ _ => Cert.KernelIdeal.Lin.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

set_option maxRecDepth 8192 in
/-- The reference run's composed term is `referenceFn` of the arguments: the same operations, grouped. -/
theorem reference_term (m : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v40 (F := Ideal) m c
      = Bridge.referenceFn (m ((c.tc : Thread Cert.ReferenceIdeal.nD Cert.ReferenceIdeal.τ).loc Cert.ReferenceIdeal.main_arg0))
          (m ((c.tc : Thread Cert.ReferenceIdeal.nD Cert.ReferenceIdeal.τ).loc Cert.ReferenceIdeal.main_arg1))
          (m ((c.tc : Thread Cert.ReferenceIdeal.nD Cert.ReferenceIdeal.τ).loc Cert.ReferenceIdeal.main_arg2))
          (m ((c.tc : Thread Cert.ReferenceIdeal.nD Cert.ReferenceIdeal.τ).loc Cert.ReferenceIdeal.main_arg3))
          (m ((c.tc : Thread Cert.ReferenceIdeal.nD Cert.ReferenceIdeal.τ).loc Cert.ReferenceIdeal.main_arg4))
          (m ((c.tc : Thread Cert.ReferenceIdeal.nD Cert.ReferenceIdeal.τ).loc Cert.ReferenceIdeal.main_arg5))
          (m ((c.tc : Thread Cert.ReferenceIdeal.nD Cert.ReferenceIdeal.τ).loc Cert.ReferenceIdeal.main_arg6))
          (m ((c.tc : Thread Cert.ReferenceIdeal.nD Cert.ReferenceIdeal.τ).loc Cert.ReferenceIdeal.main_arg7))
          (m ((c.tc : Thread Cert.ReferenceIdeal.nD Cert.ReferenceIdeal.τ).loc Cert.ReferenceIdeal.main_arg8)) := by
  unfold Cert.ReferenceIdeal.Value.res_main_v40
  rfl

/-- At the ideal values, from memories agreeing on the arguments, both programs end with the reference's function
    of the arguments in their result buffers, and their arguments unchanged. -/
theorem algebraic : Cert.algebraic_KernelIdeal_ReferenceIdeal := by
  intro m ρ m' ρ' hpre hagree
  refine ⟨fun c => Bridge.referenceFn (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)), ?_, ?_⟩
  · -- the kernel: the run's post read at the result buffer and at the arguments
    refine (θ_run Cert.KernelIdeal.defs _ _).mono (fun r h c => ⟨?_, Cert.KernelIdeal.Lin.args_of_post m r h c⟩)
      (Cert.KernelIdeal.Lin.run_main (F := Ideal) m ρ)
    have hv := (h c).2 Cert.KernelIdeal.main_v28 (Pipeline.mem_restRefs_of Cert.KernelIdeal.main_v28 (by decide) (by decide))
    rw [hv, Cert.KernelIdeal.Lin.tail_result]
    obtain ⟨hx, hW, hea, hsrc, hps⟩ := Cert.Pre_finite_inputs.Decode.of_pre _ _ _ _ _ _ _ _ _ (hpre c)
    exact Bridge.afterRegion_eq_referenceFn _ _ _ _ _ _ _ _ _ _
      (fun r j => Cert.KernelIdeal.Lin.product_array_apply m c r j) hx hW hea hsrc hps
  · -- the reference: its generated run, its term regrouped, the arguments' agreement rewritten
    refine (θ_run Cert.ReferenceIdeal.defs _ _).mono (fun _ h c => ⟨(h c).1.trans ?_, (h c).2⟩)
      (Cert.ReferenceIdeal.Value.run (F := Ideal) m' ρ')
    rw [reference_term, (hagree c).1, (hagree c).2.1, (hagree c).2.2.1, (hagree c).2.2.2.1, (hagree c).2.2.2.2.1,
      (hagree c).2.2.2.2.2.1, (hagree c).2.2.2.2.2.2.1, (hagree c).2.2.2.2.2.2.2.1, (hagree c).2.2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
